-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x512 .f32) (main_arg1 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1000#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x512 : Shape := ⟨2, ![65536, 512]⟩
abbrev S65536 : Shape := ⟨1, ![65536]⟩
abbrev S65536x1 : Shape := ⟨2, ![65536, 1]⟩
abbrev S1024x512 : Shape := ⟨2, ![1024, 512]⟩
abbrev S2x8x1024 : Shape := ⟨3, ![2, 8, 1024]⟩
abbrev S2048x256 : Shape := ⟨2, ![2048, 256]⟩
abbrev S2048x1 : Shape := ⟨2, ![2048, 1]⟩
abbrev S1024x256 : Shape := ⟨2, ![1024, 256]⟩
abbrev S1x8x1024 : Shape := ⟨3, ![1, 8, 1024]⟩
abbrev S8x1024 : Shape := ⟨2, ![8, 1024]⟩
abbrev S2048x1024 : Shape := ⟨2, ![2048, 1024]⟩
abbrev S1024 : Shape := ⟨1, ![1024]⟩
abbrev S1x1024 : Shape := ⟨2, ![1, 1024]⟩
abbrev S1x1x1024 : Shape := ⟨3, ![1, 1, 1024]⟩
abbrev S_ : Shape := ⟨0, ![]⟩
abbrev S1024x1 : Shape := ⟨2, ![1024, 1]⟩
abbrev S2048x512 : Shape := ⟨2, ![2048, 512]⟩

abbrev nBuf : Space → Nat
  | .hbm => 27
  | .vmem => 15
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S65536x1, .i32⟩
  | .hbm, ⟨3, _⟩ => ⟨S1024x512, .f32⟩
  | .hbm, ⟨4, _⟩ => ⟨S1024x512, .f32⟩
  | .hbm, ⟨5, _⟩ => ⟨S2x8x1024, .f32⟩
  | .hbm, ⟨6, _⟩ => ⟨S1x1x1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .i1⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x512, .bf16⟩
  | .hbm, ⟨26, _⟩ => ⟨S65536x512, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x8x1024, .f32⟩
  | .local _ .vmem, ⟨9, _⟩ => ⟨S1x8x1024, .f32⟩
  | .local _ .vmem, ⟨10, _⟩ => ⟨S2048x1, .i32⟩
  | .local _ .vmem, ⟨11, _⟩ => ⟨S2048x1, .i32⟩
  | .local _ .vmem, ⟨12, _⟩ => ⟨S1024x512, .bf16⟩
  | .local _ .vmem, ⟨13, _⟩ => ⟨S2048x512, .f32⟩
  | .local _ .vmem, ⟨14, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S65536_S65536x1 : S65536.ShapeCasts S65536x1
  inb_S1024x256_S1024x256_0_0 : ∀ a, (![0, 0] : Fin 2 → Nat) a + S1024x256.size a ≤ S1024x256.size a
  h_S1024x256 : 0 < S1024x256.numel
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S8x1024_S1x8x1024 : S8x1024.ShapeCasts S1x8x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S1024x256_S1024x256 : S1024x256.ShapeCasts S1024x256
  reduces_S2048x1024_S1024 : S2048x1024.Reduces [0] S1024
  shapeCasts_S1024_S1x1024 : S1024.ShapeCasts S1x1024
  shapeCasts_S1x1024_S1x1024 : S1x1024.ShapeCasts S1x1024
  broadcasts_S1x1024_S8x1024 : S1x1024.Broadcasts S8x1024
  slices_S2x8x1024_S1x1x1024_0_0_0 : S2x8x1024.Slices ![0, 0, 0] S1x1x1024
  shapeCasts_S1x1x1024_S1024 : S1x1x1024.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  bcast_S_S1024x512 : S_.BroadcastsInDim S1024x512 (![] : Fin 0 → Fin S1024x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  dot_S2048x1024_S2048x256_S1024x256_0_0_1_1_n_n_wf : DotDims.WF S2048x1024 S2048x256 S1024x256 [0] [0] [1] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x512.size a
  hwx0_0 : ∀ i : grid0.Coords, EltTy.bits .f32 = 32 ∨ (Rect.block (s := S65536x512) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x512.size a
  hwx0_2 : ∀ i : grid0.Coords, EltTy.bits .f32 = 32 ∨ (Rect.block (s := S1024x512) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x512.size a
  hwx0_3 : ∀ i : grid0.Coords, EltTy.bits .f32 = 32 ∨ (Rect.block (s := S1024x512) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1024.size a ≤ S2x8x1024.size a
  hwx0_4 : ∀ i : grid0.Coords, EltTy.bits .f32 = 32 ∨ (Rect.block (s := S2x8x1024) S1x8x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S65536x1.size a
  hwx1_0 : ∀ i : grid1.Coords, EltTy.bits .i32 = 32 ∨ (Rect.block (s := S65536x1) S2048x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S65536x512.size a
  hwx1_2 : ∀ i : grid1.Coords, EltTy.bits .f32 = 32 ∨ (Rect.block (s := S65536x512) S2048x512.size (cc1_transform_2 i) (hinb1_2 i)).WholeWords (EltTy.packing .f32)

variable [Facts₀]

def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x512 : Shape := ⟨2, ![65536, 512]⟩
abbrev S65536 : Shape := ⟨1, ![65536]⟩
abbrev S_ : Shape := ⟨0, ![]⟩
abbrev S1000 : Shape := ⟨1, ![1000]⟩
abbrev S65536x1 : Shape := ⟨2, ![65536, 1]⟩
abbrev S1000x1 : Shape := ⟨2, ![1000, 1]⟩
abbrev S1000x512 : Shape := ⟨2, ![1000, 512]⟩

abbrev nBuf : Space → Nat
  | .hbm => 48
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S1000, .f32⟩
  | .hbm, ⟨6, _⟩ => ⟨S65536x1, .i32⟩
  | .hbm, ⟨7, _⟩ => ⟨S1000, .f32⟩
  | .hbm, ⟨8, _⟩ => ⟨S_, .f32⟩
  | .hbm, ⟨9, _⟩ => ⟨S1000, .f32⟩
  | .hbm, ⟨10, _⟩ => ⟨S1000, .i1⟩
  | .hbm, ⟨11, _⟩ => ⟨S_, .f32⟩
  | .hbm, ⟨12, _⟩ => ⟨S1000, .f32⟩
  | .hbm, ⟨13, _⟩ => ⟨S1000, .f32⟩
  | .hbm, ⟨14, _⟩ => ⟨S1000x1, .f32⟩
  | .hbm, ⟨15, _⟩ => ⟨S_, .f32⟩
  | .hbm, ⟨16, _⟩ => ⟨S1000x512, .f32⟩
  | .hbm, ⟨17, _⟩ => ⟨S65536x1, .i32⟩
  | .hbm, ⟨18, _⟩ => ⟨S1000x512, .f32⟩
  | .hbm, ⟨19, _⟩ => ⟨S1000x512, .f32⟩
  | .hbm, ⟨20, _⟩ => ⟨S1000x512, .f32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S65536x1, .i32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S1000x512, .f32⟩
  | .hbm, ⟨34, _⟩ => ⟨S65536x1, .i32⟩
  | .hbm, ⟨35, _⟩ => ⟨S1000x512, .f32⟩
  | .hbm, ⟨36, _⟩ => ⟨S1000x512, .f32⟩
  | .hbm, ⟨37, _⟩ => ⟨S1000x512, .f32⟩
  | .hbm, ⟨38, _⟩ => ⟨S1000x512, .f32⟩
  | .hbm, ⟨39, _⟩ => ⟨S_, .i32⟩
  | .hbm, ⟨40, _⟩ => ⟨S65536, .i32⟩
  | .hbm, ⟨41, _⟩ => ⟨S65536, .i1⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S65536, .i32⟩
  | .hbm, ⟨46, _⟩ => ⟨S65536x1, .i32⟩
  | .hbm, ⟨47, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S1000 : S_.BroadcastsInDim S1000 (![] : Fin 0 → Fin S1000.rank)
  bcast_S65536_S65536x1_0 : S65536.BroadcastsInDim S65536x1 (![0] : Fin 1 → Fin S65536x1.rank)
  bcast_S1000_S1000x1_0 : S1000.BroadcastsInDim S1000x1 (![0] : Fin 1 → Fin S1000x1.rank)
  bcast_S_S1000x512 : S_.BroadcastsInDim S1000x512 (![] : Fin 0 → Fin S1000x512.rank)
  bcast_S1000x1_S1000x512_0_1 : S1000x1.BroadcastsInDim S1000x512 (![0, 1] : Fin 2 → Fin S1000x512.rank)
  scatter_S1000_S65536x1_S65536_n_0_0_1_wf : ScatterDims.WF S1000 S65536x1 S65536 [] [0] [0] 1
  scatter_S1000x512_S65536x1_S65536x512_1_0_0_1_wf : ScatterDims.WF S1000x512 S65536x1 S65536x512 [1] [0] [0] 1
  gather_S1000x512_S65536x1_S65536x512_1_0_n_n_0_1_1512_wf : GatherDims.WF S1000x512 S65536x1 S65536x512 [1] [0] [] [0] [] 1 ![1, 512]

variable [Facts₀]

def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def scatter_S1000x512_S65536x1_S65536x512_1_0_0_1 : ScatterDims S1000x512 S65536x1 S65536x512 where
  updateWindowDims := [1]
  insertedWindowDims := [0]
  scatterDimsToOperandDims := [0]
  indexVectorDim := 1
  wf := scatter_S1000x512_S65536x1_S65536x512_1_0_0_1_wf
def gather_S1000x512_S65536x1_S65536x512_1_0_n_n_0_1_1512 : GatherDims S1000x512 S65536x1 S65536x512 where
  offsetDims := [1]
  collapsedSliceDims := [0]
  operandBatchingDims := []
  startIndicesBatchingDims := []
  startIndexMap := [0]
  indexVectorDim := 1
  sliceSizes := ![1, 512]
  wf := gather_S1000x512_S65536x1_S65536x512_1_0_n_n_0_1_1512_wf

class Facts : Prop extends Facts₀ where

variable [Facts]
-- ==== Proof.ClassStats.lean ====
/-
  Per-class statistics of labelled samples, as plain functions over the extended reals.

  `x n e` is feature `e` of sample `n`, `lab n` the sample's class label (a 32-bit word).

  TWO readings of "the standard deviation of each sample's class":
  * through one-hot rows over 1024 padded classes (`oh`): the class sums of the features and of
    their squares and the class counts are sums over ALL samples weighted by the one-hot entry,
    the variance is mean of squares minus squared mean (clipped at zero), and a sample's row is
    picked out of the table by one more one-hot weighted sum (`outK`);
  * through segments over 1000 classes (`seg`): a class's sum runs over the samples whose label,
    read signed, IS that class, the variance is the mean of the squared deviations from the class
    mean, and a sample's row is the table's row at its label, a negative label first moved up by
    1000 and the result clamped to the table (`outR`).
  For finite features and labels inside [0, 1000) the two agree (Proof/ClassStatsLaw.lean).
-/
import Idealize.ShloMosaic.PureOps.Ideal

noncomputable section

namespace Cert.ClassStats

open Idealize.ShloMosaic

/-- The entry at class `k` of the one-hot row of label `l`. -/
def oh (l : BitVec 32) (k : ℕ) : EReal := if l = BitVec.ofNat 32 k then 1 else 0

section OneHot

variable (x : Fin 65536 → Fin 512 → EReal) (lab : Fin 65536 → BitVec 32)

/-- Class `k`'s sum of feature `e`: every sample weighted by its one-hot entry at `k`. -/
def sums (k : Fin 1024) (e : Fin 512) : EReal := ∑ n : Fin 65536, oh (lab n) k.val * x n e
/-- Class `k`'s sum of the squares of feature `e`. -/
def sumsq (k : Fin 1024) (e : Fin 512) : EReal := ∑ n : Fin 65536, oh (lab n) k.val * (x n e * x n e)
/-- How many samples carry label `k`. -/
def count (k : Fin 1024) : EReal := ∑ n : Fin 65536, oh (lab n) k.val
/-- The divisor: the count, an empty class's replaced by one. -/
def cnt (k : Fin 1024) : EReal := if count lab k = 0 then 1 else count lab k
/-- Class `k`'s standard deviation of feature `e` as mean of squares minus squared mean, clipped at zero. -/
def stdK (k : Fin 1024) (e : Fin 512) : EReal :=
  Ideal.sqrt (max (Ideal.div (sumsq x lab k e) (cnt lab k)
    - Ideal.div (sums x lab k e) (cnt lab k) * Ideal.div (sums x lab k e) (cnt lab k)) 0)
/-- Sample `n`'s row of the table, picked by its one-hot row. -/
def outK (n : Fin 65536) (e : Fin 512) : EReal := ∑ k : Fin 1024, oh (lab n) k.val * stdK x lab k e

end OneHot

section Segments

variable (x : Fin 65536 → Fin 512 → EReal) (lab : Fin 65536 → BitVec 32)

/-- A segment sum from zero: `f` over the samples whose label, read signed, is class `k`. -/
def seg (f : Fin 65536 → EReal) (k : Fin 1000) : EReal :=
  0 + ∑ n ∈ Finset.univ.filter (fun n : Fin 65536 => (lab n).toInt = (k.val : ℤ)), f n
/-- How many samples carry label `k`. -/
def rcount (k : Fin 1000) : EReal := seg lab (fun _ => 1) k
/-- The divisor: the count, an empty class's replaced by one. -/
def rcnt (k : Fin 1000) : EReal := if rcount lab k = 0 then 1 else rcount lab k
/-- The table row a label reads: a negative label moved up by 1000, the result clamped to [0, 999]. -/
def row (l : BitVec 32) : Fin 1000 :=
  ⟨min (if l.toInt < 0 then l + 1000#32 else l).toInt.toNat 999, by omega⟩
/-- Class `k`'s mean of feature `e`. -/
def rmean (k : Fin 1000) (e : Fin 512) : EReal := Ideal.div (seg lab (fun n => x n e) k) (rcnt lab k)
/-- Class `k`'s variance of feature `e`: the mean squared deviation from each member's class mean. -/
def rvar (k : Fin 1000) (e : Fin 512) : EReal :=
  Ideal.div (seg lab (fun n => (x n e - rmean x lab (row (lab n)) e) * (x n e - rmean x lab (row (lab n)) e)) k) (rcnt lab k)
/-- Sample `n`'s row of the table of standard deviations. -/
def outR (n : Fin 65536) (e : Fin 512) : EReal := Ideal.sqrt (rvar x lab (row (lab n)) e)

end Segments

end Cert.ClassStats

end
-- ==== Proof.LibTileSum.lean ====
/-
  A sum over all positions of a tiled range, taken tile by tile.
-/
import Mathlib.Algebra.BigOperators.Fin
import Mathlib.Logic.Equiv.Fin.Basic

namespace Cert.LibTileSum

/-- Position `r` of tile `i`, of `a` tiles of `b` positions each, among all `a * b` positions. -/
def pos {a b : ℕ} (i : Fin a) (r : Fin b) : Fin (a * b) :=
  ⟨b * i.val + r.val, by
    have hi := i.isLt; have hr := r.isLt
    have h1 : b * i.val + b ≤ b * a := by
      have : b * (i.val + 1) ≤ b * a := Nat.mul_le_mul_left _ hi
      rwa [Nat.mul_succ] at this
    rw [Nat.mul_comm a b]; omega⟩

theorem pos_val {a b : ℕ} (i : Fin a) (r : Fin b) : (pos i r).val = b * i.val + r.val := rfl

/-- Summing tile by tile, and within a tile position by position, is summing over all positions. -/
theorem sum_tiles {M : Type*} [AddCommMonoid M] {a b : ℕ} (f : Fin (a * b) → M) :
    ∑ i : Fin a, ∑ r : Fin b, f (pos i r) = ∑ n : Fin (a * b), f n := by
  rw [← Finset.sum_product' (f := fun i r => f (pos i r)), Finset.univ_product_univ]
  refine Fintype.sum_equiv (finProdFinEquiv (m := a) (n := b)) _ _ fun p => ?_
  congr 1
  apply Fin.ext
  simp [pos_val, finProdFinEquiv, Nat.add_comm]

end Cert.LibTileSum
-- ==== Proof.Stats0.lean ====
/-
  The first kernel region (the class statistics), read as values: after its 2 x 32 grid points the first two
  result arrays hold the one-hot weighted class sums of the features and of their squares.
-/
import proofs.«410598_j31885837205658_3_alg».proof.Proof.Gen.KernelIdeal.Frame
import proofs.«410598_j31885837205658_3_alg».proof.Proof.ClassStats
import proofs.«410598_j31885837205658_3_alg».proof.Proof.LibTileSum
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Stats0

open Cert.KernelIdeal Cert.KernelIdeal.Gen Cert.ClassStats ValueIdx

/-! ## What one grid point leaves in the two blocks, for any float values -/

section Pieces

variable {F : FTy → Type} [FloatOps F]

/-- The zero offsets of a rank-2 store, as the constant function. -/
theorem hz2 : (![0, 0] : Fin 2 → Nat) = fun _ => 0 := funext fun a => by fin_cases a <;> rfl

/-- Away from the first tile of a half, the body leaves in the sums block what it held plus the tile's product. -/
theorem out_B_2 (c : Dev nD) (i : grid0.Coords) (a2 : Memref sig .tc .vmem S2048x256 .f32) (h2 : a2.IsWhole) (a3 : Memref sig .tc .vmem S2048x1 .i32) (h3 : a3.IsWhole) (a4 : Memref sig .tc .vmem S1024x256 .f32) (h4 : a4.IsWhole) (a5 : Memref sig .tc .vmem S1024x256 .f32) (h5 : a5.IsWhole) (a6 : Memref sig .tc .vmem S1x8x1024 .f32) (h6 : a6.IsWhole) (hc : ¬cond0_0 i)
    (x0 : Vec F S2048x256 .f32) (x1 : Vec F S2048x1 .i32) (xo2 xo3 : Vec F S1024x256 .f32) (xo4 : Vec F S1x8x1024 .f32) :
    out0_B_2 c i a2 h2 a3 h3 a4 h4 a5 h5 a6 h6 hc x0 x1 xo2 xo3 xo4 = k0_pay7 x1 x0 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, View.ld_unit_zero (S := S2048x256) hz2, View.ld_unit_zero (S := S2048x1) hz2, View.ld_unit_zero (S := S1024x256) hz2]

/-- The same for the block of squared sums. -/
theorem out_B_3 (c : Dev nD) (i : grid0.Coords) (a2 : Memref sig .tc .vmem S2048x256 .f32) (h2 : a2.IsWhole) (a3 : Memref sig .tc .vmem S2048x1 .i32) (h3 : a3.IsWhole) (a4 : Memref sig .tc .vmem S1024x256 .f32) (h4 : a4.IsWhole) (a5 : Memref sig .tc .vmem S1024x256 .f32) (h5 : a5.IsWhole) (a6 : Memref sig .tc .vmem S1x8x1024 .f32) (h6 : a6.IsWhole) (hc : ¬cond0_0 i)
    (x0 : Vec F S2048x256 .f32) (x1 : Vec F S2048x1 .i32) (xo2 xo3 : Vec F S1024x256 .f32) (xo4 : Vec F S1x8x1024 .f32) :
    out0_B_3 c i a2 h2 a3 h3 a4 h4 a5 h5 a6 h6 hc x0 x1 xo2 xo3 xo4 = k0_pay8 x1 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h5.read_unread, View.ld_unit_zero (S := S2048x256) hz2, View.ld_unit_zero (S := S2048x1) hz2, View.ld_unit_zero (S := S1024x256) hz2]

/-- At the first tile of a half the body first stores zeros, so it leaves zero plus the tile's product. -/
theorem out_A_2 (c : Dev nD) (i : grid0.Coords) (a2 : Memref sig .tc .vmem S2048x256 .f32) (h2 : a2.IsWhole) (a3 : Memref sig .tc .vmem S2048x1 .i32) (h3 : a3.IsWhole) (a4 : Memref sig .tc .vmem S1024x256 .f32) (h4 : a4.IsWhole) (a5 : Memref sig .tc .vmem S1024x256 .f32) (h5 : a5.IsWhole) (a6 : Memref sig .tc .vmem S1x8x1024 .f32) (h6 : a6.IsWhole) (hc : cond0_0 i)
    (x0 : Vec F S2048x256 .f32) (x1 : Vec F S2048x1 .i32) :
    out0_A_2 c i a2 h2 a3 h3 a4 h4 a5 h5 a6 h6 hc x0 x1 = k0_pay7 x1 x0 k0_pay2 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1024x256) hz2, View.readCov_unit_zero (S := S1024x256) _ hz2]
  simp only [View.readAt_eq_ld, h2.read_unread, h3.read_unread, View.ld_unit_zero (S := S2048x256) hz2, View.ld_unit_zero (S := S2048x1) hz2, View.ld_unit_zero (S := S1024x256) hz2]

/-- The same for the block of squared sums. -/
theorem out_A_3 (c : Dev nD) (i : grid0.Coords) (a2 : Memref sig .tc .vmem S2048x256 .f32) (h2 : a2.IsWhole) (a3 : Memref sig .tc .vmem S2048x1 .i32) (h3 : a3.IsWhole) (a4 : Memref sig .tc .vmem S1024x256 .f32) (h4 : a4.IsWhole) (a5 : Memref sig .tc .vmem S1024x256 .f32) (h5 : a5.IsWhole) (a6 : Memref sig .tc .vmem S1x8x1024 .f32) (h6 : a6.IsWhole) (hc : cond0_0 i)
    (x0 : Vec F S2048x256 .f32) (x1 : Vec F S2048x1 .i32) :
    out0_A_3 c i a2 h2 a3 h3 a4 h4 a5 h5 a6 h6 hc x0 x1 = k0_pay8 x1 x0 k0_pay3 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1024x256) hz2, View.readCov_unit_zero (S := S1024x256) _ hz2]
  simp only [View.readAt_eq_ld, h2.read_unread, h3.read_unread, View.ld_unit_zero (S := S2048x256) hz2, View.ld_unit_zero (S := S2048x1) hz2, View.ld_unit_zero (S := S1024x256) hz2]

end Pieces

/-! ## The body's arithmetic at an index, at the ideal values -/

/-- The comparison word of two labels, widened and converted, is the one-hot entry: 1 where they agree, else 0. -/
theorem onehot_word (l m : BitVec 32) :
    (FloatOps.sitofp (F := Ideal) .f32 (BitVec.setWidth 32 (IntOp.cmpi .eq l m)) : EReal) = if l = m then 1 else 0 := by
  show (((BitVec.setWidth 32 (BitVec.ofBool (l == m))).toInt : ℝ) : EReal) = _
  by_cases h : l = m
  · rw [if_pos h, show (l == m) = true from beq_iff_eq.mpr h,
      show (BitVec.setWidth 32 (BitVec.ofBool true)).toInt = 1 from by decide]
    norm_num
  · rw [if_neg h, show (l == m) = false from beq_eq_false_iff_ne.mpr h,
      show (BitVec.setWidth 32 (BitVec.ofBool false)).toInt = 0 from by decide]
    norm_num

/-- The one-hot tile at row `r`, class `k`: the row's label against the class number. -/
theorem pay5_apply (x1 : Vec Ideal S2048x1 .i32) (r : Fin 2048) (k : Fin 1024) :
    k0_pay5 (F := Ideal) x1 (ix2 r k) = oh (x1 (ix2 r (0 : Fin 1))) k.val := by
  unfold k0_pay5
  dsimp only
  rw [sitofp_apply, extui_apply]
  show FloatOps.sitofp (F := Ideal) .f32 (BitVec.setWidth 32 (IntOp.cmpi .eq
      (broadcastTo S2048x1024 (shapeCast S2048x1 x1 shapeCasts_S2048x1_S2048x1) broadcasts_S2048x1_S2048x1024 (ix2 r k))
      (iota Kind.tc S2048x1024 32 [1] iota_S2048x1024_d1_w32 (ix2 r k)))) = _
  rw [onehot_word, iota_single_apply, shapeCast_self,
    broadcastTo_apply x1 broadcasts_S2048x1_S2048x1024 (ix2 r k) (ix2 r (0 : Fin 1))
      (fun a => by match a with | ⟨0, _⟩ => rfl | ⟨1, _⟩ => rfl)]
  rfl

/-- The product's dimension numbers: both operands contract their row axis. -/
abbrev D0 : DotDims S2048x1024 S2048x256 S1024x256 := dot_S2048x1024_S2048x256_S1024x256_0_0_1_1_n_n

theorem lhs_D0_0 (j : S1024x256.Idx) (q : D0.contr.Idx) : (D0.lhsIdx j q 0).val = (q ⟨0, by decide⟩).val :=
  D0.lhsIdx_val_of_single (cl := 0) rfl j q
theorem rhs_D0_0 (j : S1024x256.Idx) (q : D0.contr.Idx) : (D0.rhsIdx j q 0).val = (q ⟨0, by decide⟩).val :=
  D0.rhsIdx_val_of_single (cr := 0) rfl j q
theorem lhs_D0_1 (j : S1024x256.Idx) (q : D0.contr.Idx) : (D0.lhsIdx j q 1).val = (j 0).val := by
  unfold DotDims.lhsIdx
  rw [dif_neg (show ¬(1 : Fin S2048x1024.rank) ∈ D0.lhsBatch by decide), dif_pos (show (1 : Fin S2048x1024.rank) ∈ D0.lhsNonContracting by decide)]
  rfl
theorem rhs_D0_1 (j : S1024x256.Idx) (q : D0.contr.Idx) : (D0.rhsIdx j q 1).val = (j 1).val := by
  unfold DotDims.rhsIdx
  rw [dif_neg (show ¬(1 : Fin S2048x256.rank) ∈ D0.rhsBatch by decide), dif_pos (show (1 : Fin S2048x256.rank) ∈ D0.rhsNonContracting by decide)]
  rfl

/-- The tile product into a zero accumulator, at class `k` and column `d`: the sum over the tile's 2048 rows. -/
theorem matmul_tile_apply (A : FVec Ideal S2048x1024 .bf16) (B : FVec Ideal S2048x256 .bf16) (k : Fin 1024) (d : Fin 256) :
    matmul D0 none A B (constant (F := Ideal) S1024x256 .f32 0x00000000#32) (ix2 k d)
      = ∑ r : Fin 2048, A (ix2 r k) * B (ix2 r d) := by
  show FloatOps.matmul D0 none A B (constant (F := Ideal) S1024x256 .f32 0x00000000#32) (ix2 k d) = _
  rw [Ideal.matmul_constant_zero_apply, ← Equiv.sum_comp (contrEquiv1 D0 2048 rfl rfl).symm]
  refine Finset.sum_congr rfl fun r _ => ?_
  have c2 := contrEquiv1_symm_val D0 2048 rfl rfl r
  have l2 : D0.lhsIdx (ix2 k d) ((contrEquiv1 D0 2048 rfl rfl).symm r) = ix2 r k := by
    funext ax; apply Fin.ext
    match ax with
    | ⟨0, _⟩ => exact (lhs_D0_0 _ _).trans c2
    | ⟨1, _⟩ => exact lhs_D0_1 _ _
  have r2 : D0.rhsIdx (ix2 k d) ((contrEquiv1 D0 2048 rfl rfl).symm r) = ix2 r d := by
    funext ax; apply Fin.ext
    match ax with
    | ⟨0, _⟩ => exact (rhs_D0_0 _ _).trans c2
    | ⟨1, _⟩ => exact rhs_D0_1 _ _
  rw [l2, r2]

/-- The stored sums block at `(k, d)`: the old entry plus the tile's one-hot weighted column sum. -/
theorem pay7_apply (x1 : Vec Ideal S2048x1 .i32) (x0 : Vec Ideal S2048x256 .f32) (acc : Vec Ideal S1024x256 .f32)
    (k : Fin 1024) (d : Fin 256) :
    k0_pay7 (F := Ideal) x1 x0 acc (ix2 k d)
      = acc (ix2 k d) + ∑ r : Fin 2048, oh (x1 (ix2 r (0 : Fin 1))) k.val * x0 (ix2 r d) := by
  unfold k0_pay7 k0_pay6
  dsimp only
  rw [addf_apply, shapeCast_self]
  refine congrArg (acc (ix2 k d) + ·) ?_
  refine (matmul_tile_apply _ _ k d).trans ?_
  refine Finset.sum_congr rfl fun r _ => ?_
  rw [truncf_apply, truncf_apply, pay5_apply]

/-- The stored block of squared sums at `(k, d)`. -/
theorem pay8_apply (x1 : Vec Ideal S2048x1 .i32) (x0 : Vec Ideal S2048x256 .f32) (acc : Vec Ideal S1024x256 .f32)
    (k : Fin 1024) (d : Fin 256) :
    k0_pay8 (F := Ideal) x1 x0 acc (ix2 k d)
      = acc (ix2 k d) + ∑ r : Fin 2048, oh (x1 (ix2 r (0 : Fin 1))) k.val * (x0 (ix2 r d) * x0 (ix2 r d)) := by
  unfold k0_pay8 k0_pay6
  dsimp only
  rw [addf_apply, shapeCast_self]
  refine congrArg (acc (ix2 k d) + ·) ?_
  refine (matmul_tile_apply _ _ k d).trans ?_
  refine Finset.sum_congr rfl fun r _ => ?_
  rw [truncf_apply, truncf_apply, pay5_apply, mulf_apply]

/-- The zero blocks the first tile stores read zero everywhere. -/
theorem pay2_apply (y : S1024x256.Idx) : k0_pay2 (F := Ideal) y = 0 := Ideal.ofBits_zero_f32
theorem pay3_apply (y : S1024x256.Idx) : k0_pay3 (F := Ideal) y = 0 := Ideal.ofBits_zero_f32

variable (V : (c : Dev nD) → (b : Ref sig .tc) → Buf (Elt Ideal) ((c : Thread nD τ).loc b))

/-- The features as the region finds them, by sample and feature. -/
abbrev feat (c : Dev nD) : Fin 65536 → Fin 512 → EReal := fun n e => V c main_arg0 (ix2 n e)
/-- The labels as the region finds them (a column of one entry per sample). -/
abbrev labs (c : Dev nD) : Fin 65536 → BitVec 32 := fun n => V c main_v0 (ix2 n (0 : Fin 1))

/-! ## The input blocks of a grid point

Point `t = 32 j + i` reads the feature tile of samples `2048 i …` and features `256 j …`, and the label tile of
the same samples. The two arrays are extended by zero past their ends so that a tile's entries can be named by
plain numbers. -/

/-- The features by plain numbers, zero past the array. -/
def featN (c : Dev nD) (n e : ℕ) : EReal := if h : n < 65536 ∧ e < 512 then feat V c ⟨n, h.1⟩ ⟨e, h.2⟩ else 0
/-- The labels by plain numbers, the zero word past the array. -/
def labN (c : Dev nD) (n : ℕ) : BitVec 32 := if h : n < 65536 then labs V c ⟨n, h⟩ else 0#32

/-- The feature tile of point `t`. -/
abbrev fblk (c : Dev nD) (t : Fin cfg0.N) : Vec Ideal S2048x256 .f32 := iblk0 V c 0 t
/-- The label tile of point `t`. -/
abbrev lblk (c : Dev nD) (t : Fin cfg0.N) : Vec Ideal S2048x1 .i32 := iblk0 V c 1 t

/-- The block indices of the four windows at a point, decided over the grid. -/
theorem idx_facts : ∀ t : Fin cfg0.N,
    win0_0.index t (0 : Fin 2) = t.val % 32 ∧ win0_0.index t (1 : Fin 2) = t.val / 32
    ∧ win0_1.index t (0 : Fin 2) = t.val % 32 ∧ win0_1.index t (1 : Fin 2) = 0
    ∧ win0_2.index t (0 : Fin 2) = 0 ∧ win0_2.index t (1 : Fin 2) = t.val / 32
    ∧ win0_3.index t (0 : Fin 2) = 0 ∧ win0_3.index t (1 : Fin 2) = t.val / 32 :=
  (by decide +kernel : ∀ t : Fin grid0.N,
    win0_0.index t (0 : Fin 2) = t.val % 32 ∧ win0_0.index t (1 : Fin 2) = t.val / 32
    ∧ win0_1.index t (0 : Fin 2) = t.val % 32 ∧ win0_1.index t (1 : Fin 2) = 0
    ∧ win0_2.index t (0 : Fin 2) = 0 ∧ win0_2.index t (1 : Fin 2) = t.val / 32
    ∧ win0_3.index t (0 : Fin 2) = 0 ∧ win0_3.index t (1 : Fin 2) = t.val / 32)

/-- Row `r`, column `d` of the feature tile is sample `2048 i + r`, feature `256 j + d`. -/
theorem fblk_apply (c : Dev nD) (t : Fin cfg0.N) (r : Fin 2048) (d : Fin 256) :
    fblk V c t (ix2 r d) = featN V c (2048 * (t.val % 32) + r.val) (256 * (t.val / 32) + d.val) := by
  have hN : t.val < 64 := lt_of_lt_of_eq t.isLt N_0
  obtain ⟨e0, e1, -⟩ := idx_facts t
  have hr := r.isLt
  have hd := d.isLt
  have hb : 2048 * (t.val % 32) + r.val < 65536 ∧ 256 * (t.val / 32) + d.val < 512 := ⟨by omega, by omega⟩
  unfold featN
  rw [dif_pos hb]
  show V c main_arg0 (((cfg0.win 0).blk t).view.emb (ix2 r d)) = V c main_arg0 (ix2 ⟨_, hb.1⟩ ⟨_, hb.2⟩)
  refine congrArg (V c main_arg0) (funext fun a => Fin.ext ?_)
  match a with
  | ⟨0, _⟩ => show win0_0.index t (0 : Fin 2) * 2048 + 1 * r.val = 2048 * (t.val % 32) + r.val; rw [e0]; omega
  | ⟨1, _⟩ => show win0_0.index t (1 : Fin 2) * 256 + 1 * d.val = 256 * (t.val / 32) + d.val; rw [e1]; omega

/-- Row `r` of the label tile is the label of sample `2048 i + r`. -/
theorem lblk_apply (c : Dev nD) (t : Fin cfg0.N) (r : Fin 2048) :
    lblk V c t (ix2 r (0 : Fin 1)) = labN V c (2048 * (t.val % 32) + r.val) := by
  have hN : t.val < 64 := lt_of_lt_of_eq t.isLt N_0
  obtain ⟨-, -, e0, e1, -⟩ := idx_facts t
  have hr := r.isLt
  have hb : 2048 * (t.val % 32) + r.val < 65536 := by omega
  unfold labN
  rw [dif_pos hb]
  show V c main_v0 (((cfg0.win 1).blk t).view.emb (ix2 r (0 : Fin 1))) = V c main_v0 (ix2 ⟨_, hb⟩ (0 : Fin 1))
  refine congrArg (V c main_v0) (funext fun a => Fin.ext ?_)
  match a with
  | ⟨0, _⟩ => show win0_1.index t (0 : Fin 2) * 2048 + 1 * r.val = 2048 * (t.val % 32) + r.val; rw [e0]; omega
  | ⟨1, _⟩ => show win0_1.index t (1 : Fin 2) * 1 + 1 * 0 = 0; rw [e1]

/-! ## The running sums

One tile's share of a class sum: the tile's 2048 samples weighted by their one-hot entries. After point
`t = 32 j + i` the two blocks hold the shares of tiles `0 … i` of half `j`: the first tile of a half starts from
zero, every later one adds to what the tile before left (addition of extended reals is associative). -/

/-- Tile `s`'s share of class `k`'s sum of feature `256 q + d`. -/
def tile2 (c : Dev nD) (q s : ℕ) (k : Fin 1024) (d : Fin 256) : EReal :=
  ∑ r : Fin 2048, oh (labN V c (2048 * s + r.val)) k.val * featN V c (2048 * s + r.val) (256 * q + d.val)
/-- Tile `s`'s share of class `k`'s sum of the squares of feature `256 q + d`. -/
def tile3 (c : Dev nD) (q s : ℕ) (k : Fin 1024) (d : Fin 256) : EReal :=
  ∑ r : Fin 2048, oh (labN V c (2048 * s + r.val)) k.val
    * (featN V c (2048 * s + r.val) (256 * q + d.val) * featN V c (2048 * s + r.val) (256 * q + d.val))

/-- The product of point `t`'s one-hot tile with its feature tile is that tile's share. -/
theorem tile2_point (c : Dev nD) (t : Fin cfg0.N) (k : Fin 1024) (d : Fin 256) :
    ∑ r : Fin 2048, oh (lblk V c t (ix2 r (0 : Fin 1))) k.val * fblk V c t (ix2 r d)
      = tile2 V c (t.val / 32) (t.val % 32) k d := by
  unfold tile2
  refine Finset.sum_congr rfl fun r _ => ?_
  rw [lblk_apply V c t r, fblk_apply V c t r d]
theorem tile3_point (c : Dev nD) (t : Fin cfg0.N) (k : Fin 1024) (d : Fin 256) :
    ∑ r : Fin 2048, oh (lblk V c t (ix2 r (0 : Fin 1))) k.val * (fblk V c t (ix2 r d) * fblk V c t (ix2 r d))
      = tile3 V c (t.val / 32) (t.val % 32) k d := by
  unfold tile3
  refine Finset.sum_congr rfl fun r _ => ?_
  rw [lblk_apply V c t r, fblk_apply V c t r d]

/-- At the first tile of a half the blocks hold that tile's shares. -/
theorem outs_A (c : Dev nD) (t : Fin cfg0.N) (h0 : t.val % 32 = 0) (k : Fin 1024) (d : Fin 256) :
    (outsAt0 V c t.val t.isLt).1 (ix2 k d) = tile2 V c (t.val / 32) (t.val % 32) k d
    ∧ (outsAt0 V c t.val t.isLt).2.1 (ix2 k d) = tile3 V c (t.val / 32) (t.val % 32) k d := by
  rw [outsAt0_A V c t h0]
  dsimp only
  constructor
  · refine (congrFun (out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (fblk V c t) (lblk V c t)) (ix2 k d)).trans ?_
    refine (pay7_apply (lblk V c t) (fblk V c t) (k0_pay2 (F := Ideal)) k d).trans ?_
    rw [pay2_apply, zero_add]
    exact tile2_point V c t k d
  · refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (fblk V c t) (lblk V c t)) (ix2 k d)).trans ?_
    refine (pay8_apply (lblk V c t) (fblk V c t) (k0_pay3 (F := Ideal)) k d).trans ?_
    rw [pay3_apply, zero_add]
    exact tile3_point V c t k d

/-- At every later tile they hold what the tile before left plus this tile's shares. -/
theorem outs_B (c : Dev nD) (t : Fin cfg0.N) (h0 : ¬t.val % 32 = 0) (k : Fin 1024) (d : Fin 256) :
    (outsAt0 V c t.val t.isLt).1 (ix2 k d)
      = (outsAt0 V c (t.val - 1) (Nat.lt_of_le_of_lt (Nat.sub_le _ _) t.isLt)).1 (ix2 k d) + tile2 V c (t.val / 32) (t.val % 32) k d
    ∧ (outsAt0 V c t.val t.isLt).2.1 (ix2 k d)
      = (outsAt0 V c (t.val - 1) (Nat.lt_of_le_of_lt (Nat.sub_le _ _) t.isLt)).2.1 (ix2 k d) + tile3 V c (t.val / 32) (t.val % 32) k d := by
  rw [outsAt0_B V c t h0]
  dsimp only
  constructor
  · refine (congrFun (out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fblk V c t) (lblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix2 k d)).trans ?_
    refine (pay7_apply (lblk V c t) (fblk V c t) (outsAt0 V c (t.val - 1) (Nat.lt_of_le_of_lt (Nat.sub_le _ _) t.isLt)).1 k d).trans ?_
    exact congrArg ((outsAt0 V c (t.val - 1) (Nat.lt_of_le_of_lt (Nat.sub_le _ _) t.isLt)).1 (ix2 k d) + ·) (tile2_point V c t k d)
  · refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fblk V c t) (lblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix2 k d)).trans ?_
    refine (pay8_apply (lblk V c t) (fblk V c t) (outsAt0 V c (t.val - 1) (Nat.lt_of_le_of_lt (Nat.sub_le _ _) t.isLt)).2.1 k d).trans ?_
    exact congrArg ((outsAt0 V c (t.val - 1) (Nat.lt_of_le_of_lt (Nat.sub_le _ _) t.isLt)).2.1 (ix2 k d) + ·) (tile3_point V c t k d)

/-- So after point `n` the blocks hold the shares of the tiles of its half up to its own (by induction on the point). -/
theorem outs_sum (c : Dev nD) (k : Fin 1024) (d : Fin 256) : ∀ (n : ℕ) (h : n < cfg0.N),
    (outsAt0 V c n h).1 (ix2 k d) = ∑ s ∈ Finset.range (n % 32 + 1), tile2 V c (n / 32) s k d
    ∧ (outsAt0 V c n h).2.1 (ix2 k d) = ∑ s ∈ Finset.range (n % 32 + 1), tile3 V c (n / 32) s k d := by
  intro n
  induction n with
  | zero =>
    intro h
    obtain ⟨a2, a3⟩ := outs_A V c ⟨0, h⟩ rfl k d
    exact ⟨a2.trans (Finset.sum_range_one (fun s => tile2 V c (0 / 32) s k d)).symm,
      a3.trans (Finset.sum_range_one (fun s => tile3 V c (0 / 32) s k d)).symm⟩
  | succ n ih =>
    intro h
    by_cases h0 : (n + 1) % 32 = 0
    · obtain ⟨a2, a3⟩ := outs_A V c ⟨n + 1, h⟩ h0 k d
      dsimp only at a2 a3
      rw [h0] at a2 a3 ⊢
      exact ⟨a2.trans (Finset.sum_range_one (fun s => tile2 V c ((n + 1) / 32) s k d)).symm,
        a3.trans (Finset.sum_range_one (fun s => tile3 V c ((n + 1) / 32) s k d)).symm⟩
    · obtain ⟨b2, b3⟩ := outs_B V c ⟨n + 1, h⟩ h0 k d
      obtain ⟨i2, i3⟩ := ih (Nat.lt_of_succ_lt h)
      have e1 : (n + 1) % 32 = n % 32 + 1 := by omega
      have e2 : (n + 1) / 32 = n / 32 := by omega
      constructor
      · refine b2.trans ?_
        show (outsAt0 V c n (Nat.lt_of_succ_lt h)).1 (ix2 k d) + tile2 V c ((n + 1) / 32) ((n + 1) % 32) k d = _
        rw [i2, e1, e2, Finset.sum_range_succ (fun s => tile2 V c (n / 32) s k d) (n % 32 + 1)]
      · refine b3.trans ?_
        show (outsAt0 V c n (Nat.lt_of_succ_lt h)).2.1 (ix2 k d) + tile3 V c ((n + 1) / 32) ((n + 1) % 32) k d = _
        rw [i3, e1, e2, Finset.sum_range_succ (fun s => tile3 V c (n / 32) s k d) (n % 32 + 1)]

/-! ## The 32 tiles of a half are all the samples -/

/-- The shares of the 32 tiles add up to the class sum over all 65536 samples. -/
theorem tiles2_sum (c : Dev nD) (q : ℕ) (hq : q < 2) (k : Fin 1024) (d : Fin 256) :
    ∑ s ∈ Finset.range 32, tile2 V c q s k d
      = sums (feat V c) (labs V c) k ⟨256 * q + d.val, by have := d.isLt; omega⟩ := by
  have hd := d.isLt
  rw [Finset.sum_range]
  unfold sums
  refine Eq.trans ?_ (Cert.LibTileSum.sum_tiles (a := 32) (b := 2048)
    (fun n : Fin (32 * 2048) => oh (labs V c n) k.val * feat V c n ⟨256 * q + d.val, by omega⟩))
  refine Finset.sum_congr rfl fun s _ => ?_
  unfold tile2
  refine Finset.sum_congr rfl fun r _ => ?_
  have hs := s.isLt
  have hr := r.isLt
  unfold labN featN
  rw [dif_pos (show 2048 * s.val + r.val < 65536 by omega),
    dif_pos (show 2048 * s.val + r.val < 65536 ∧ 256 * q + d.val < 512 from ⟨by omega, by omega⟩)]
  rfl
theorem tiles3_sum (c : Dev nD) (q : ℕ) (hq : q < 2) (k : Fin 1024) (d : Fin 256) :
    ∑ s ∈ Finset.range 32, tile3 V c q s k d
      = sumsq (feat V c) (labs V c) k ⟨256 * q + d.val, by have := d.isLt; omega⟩ := by
  have hd := d.isLt
  rw [Finset.sum_range]
  unfold sumsq
  refine Eq.trans ?_ (Cert.LibTileSum.sum_tiles (a := 32) (b := 2048)
    (fun n : Fin (32 * 2048) => oh (labs V c n) k.val
      * (feat V c n ⟨256 * q + d.val, by omega⟩ * feat V c n ⟨256 * q + d.val, by omega⟩)))
  refine Finset.sum_congr rfl fun s _ => ?_
  unfold tile3
  refine Finset.sum_congr rfl fun r _ => ?_
  have hs := s.isLt
  have hr := r.isLt
  unfold labN featN
  rw [dif_pos (show 2048 * s.val + r.val < 65536 by omega),
    dif_pos (show 2048 * s.val + r.val < 65536 ∧ 256 * q + d.val < 512 from ⟨by omega, by omega⟩)]
  rfl

/-! ## The result arrays

Each half's block is written back once, after its last tile, and the two blocks cover the array. -/

/-- The class sums by class and feature, as contents of the whole result array. -/
def G2 (c : Dev nD) : S1024x512.Idx → EReal :=
  fun i => sums (feat V c) (labs V c) ⟨(i 0).val, idx2_lt0 i⟩ ⟨(i 1).val, idx2_lt1 i⟩
theorem G2_apply (c : Dev nD) (k : Fin 1024) (e : Fin 512) :
    G2 V c (ix2 k e) = sums (feat V c) (labs V c) k e := rfl

/-- A block of the result array, read out of any contents of the array, entry by entry. -/
theorem read_blk2 (G : S1024x512.Idx → EReal) (t : Fin cfg0.N) (y : S1024x256.Idx) :
    ((cfg0.win 2).blk t).view.read (Elt Ideal) G y = G (((cfg0.win 2).blk t).view.emb y) := rfl

/-- The last tile of half `j` writes back columns `256 j …` of them: the block then holds the shares of all 32 tiles. -/
theorem flushed2_eq (c : Dev nD) (t : Fin cfg0.N) (hf : (cfg0.win 2).flush t = true) :
    (dat0 (F := Ideal) V c).flushed 2 t = ((cfg0.win 2).blk t).view.read (Elt Ideal) (G2 V c) := by
  have hN : t.val < 64 := lt_of_lt_of_eq t.isLt N_0
  have h31 : t.val % 32 = 31 := (flush0_2 t).mp hf
  obtain ⟨-, -, -, -, e20, e21, e30, e31⟩ := idx_facts t
  show (cfg0.win 2).cut (grid0.coords t) ((dat0 (F := Ideal) V c).after 2 t) = _
  rw [after0_2]
  funext y
  obtain ⟨k, d, rfl⟩ : ∃ (k : Fin 1024) (d : Fin 256), y = ix2 k d := ⟨y 0, y 1, eq_ix2 y⟩
  have hd := d.isLt
  have hq : t.val / 32 < 2 := by omega
  have hb : 256 * (t.val / 32) + d.val < 512 := by omega
  have hemb : ((cfg0.win 2).blk t).view.emb (ix2 k d) = (ix2 k ⟨256 * (t.val / 32) + d.val, hb⟩ : S1024x512.Idx) := by
    funext a; apply Fin.ext
    match a with
    | ⟨0, _⟩ => show win0_2.index t (0 : Fin 2) * 1024 + 1 * k.val = k.val; rw [e20]; omega
    | ⟨1, _⟩ => show win0_2.index t (1 : Fin 2) * 256 + 1 * d.val = 256 * (t.val / 32) + d.val; rw [e21]; omega
  refine Eq.trans ?_ (read_blk2 (G2 V c) t (ix2 k d)).symm
  rw [hemb, G2_apply]
  show (outsAt0 V c t.val t.isLt).1 (ix2 k d) = _
  rw [(outs_sum V c k d t.val t.isLt).1, h31]
  exact tiles2_sum V c (t.val / 32) hq k d

/-- Column `e` of the result lies in the block of half `e / 256`, written back at that half's last tile. -/
theorem cover2 (i : S1024x512.Idx) :
    ∃ t : Fin cfg0.N, (cfg0.win 2).flush t = true ∧ i ∈ ((cfg0.win 2).blk t).view.set := by
  have hN : cfg0.N = 64 := N_0
  have h0 : (i 0).val < 1024 := idx2_lt0 i
  have h1 : (i 1).val < 512 := idx2_lt1 i
  have hlt : 32 * ((i 1).val / 256) + 31 < cfg0.N := by rw [hN]; omega
  obtain ⟨-, -, -, -, e20, e21, e30, e31⟩ := idx_facts ⟨32 * ((i 1).val / 256) + 31, hlt⟩
  have ev : (32 * ((i 1).val / 256) + 31) / 32 = (i 1).val / 256 := by omega
  refine ⟨⟨32 * ((i 1).val / 256) + 31, hlt⟩, (flush0_2 _).mpr (by show (32 * ((i 1).val / 256) + 31) % 32 = 31; omega), ?_⟩
  show i ∈ ((View.whole main_v1_0).slice (win0_2.rect ⟨32 * ((i 1).val / 256) + 31, hlt⟩)).set
  rw [View.set_slice_whole, Rect.mem_set_unit]
  intro a
  match a with
  | ⟨0, _⟩ =>
    show win0_2.index ⟨32 * ((i 1).val / 256) + 31, hlt⟩ (0 : Fin 2) * 1024 ≤ (i 0).val
      ∧ (i 0).val < win0_2.index ⟨32 * ((i 1).val / 256) + 31, hlt⟩ (0 : Fin 2) * 1024 + 1024
    rw [e20]; omega
  | ⟨1, _⟩ =>
    show win0_2.index ⟨32 * ((i 1).val / 256) + 31, hlt⟩ (1 : Fin 2) * 256 ≤ (i 1).val
      ∧ (i 1).val < win0_2.index ⟨32 * ((i 1).val / 256) + 31, hlt⟩ (1 : Fin 2) * 256 + 256
    rw [e21]; dsimp only; rw [ev]; omega

/-- The class sums of squares by class and feature, as contents of the whole result array. -/
def G3 (c : Dev nD) : S1024x512.Idx → EReal :=
  fun i => sumsq (feat V c) (labs V c) ⟨(i 0).val, idx2_lt0 i⟩ ⟨(i 1).val, idx2_lt1 i⟩
theorem G3_apply (c : Dev nD) (k : Fin 1024) (e : Fin 512) :
    G3 V c (ix2 k e) = sumsq (feat V c) (labs V c) k e := rfl

/-- A block of the result array, read out of any contents of the array, entry by entry. -/
theorem read_blk3 (G : S1024x512.Idx → EReal) (t : Fin cfg0.N) (y : S1024x256.Idx) :
    ((cfg0.win 3).blk t).view.read (Elt Ideal) G y = G (((cfg0.win 3).blk t).view.emb y) := rfl

/-- The last tile of half `j` writes back columns `256 j …` of them: the block then holds the shares of all 32 tiles. -/
theorem flushed3_eq (c : Dev nD) (t : Fin cfg0.N) (hf : (cfg0.win 3).flush t = true) :
    (dat0 (F := Ideal) V c).flushed 3 t = ((cfg0.win 3).blk t).view.read (Elt Ideal) (G3 V c) := by
  have hN : t.val < 64 := lt_of_lt_of_eq t.isLt N_0
  have h31 : t.val % 32 = 31 := (flush0_3 t).mp hf
  obtain ⟨-, -, -, -, e20, e21, e30, e31⟩ := idx_facts t
  show (cfg0.win 3).cut (grid0.coords t) ((dat0 (F := Ideal) V c).after 3 t) = _
  rw [after0_3]
  funext y
  obtain ⟨k, d, rfl⟩ : ∃ (k : Fin 1024) (d : Fin 256), y = ix2 k d := ⟨y 0, y 1, eq_ix2 y⟩
  have hd := d.isLt
  have hq : t.val / 32 < 2 := by omega
  have hb : 256 * (t.val / 32) + d.val < 512 := by omega
  have hemb : ((cfg0.win 3).blk t).view.emb (ix2 k d) = (ix2 k ⟨256 * (t.val / 32) + d.val, hb⟩ : S1024x512.Idx) := by
    funext a; apply Fin.ext
    match a with
    | ⟨0, _⟩ => show win0_3.index t (0 : Fin 2) * 1024 + 1 * k.val = k.val; rw [e30]; omega
    | ⟨1, _⟩ => show win0_3.index t (1 : Fin 2) * 256 + 1 * d.val = 256 * (t.val / 32) + d.val; rw [e31]; omega
  refine Eq.trans ?_ (read_blk3 (G3 V c) t (ix2 k d)).symm
  rw [hemb, G3_apply]
  show (outsAt0 V c t.val t.isLt).2.1 (ix2 k d) = _
  rw [(outs_sum V c k d t.val t.isLt).2, h31]
  exact tiles3_sum V c (t.val / 32) hq k d

/-- Column `e` of the result lies in the block of half `e / 256`, written back at that half's last tile. -/
theorem cover3 (i : S1024x512.Idx) :
    ∃ t : Fin cfg0.N, (cfg0.win 3).flush t = true ∧ i ∈ ((cfg0.win 3).blk t).view.set := by
  have hN : cfg0.N = 64 := N_0
  have h0 : (i 0).val < 1024 := idx2_lt0 i
  have h1 : (i 1).val < 512 := idx2_lt1 i
  have hlt : 32 * ((i 1).val / 256) + 31 < cfg0.N := by rw [hN]; omega
  obtain ⟨-, -, -, -, e20, e21, e30, e31⟩ := idx_facts ⟨32 * ((i 1).val / 256) + 31, hlt⟩
  have ev : (32 * ((i 1).val / 256) + 31) / 32 = (i 1).val / 256 := by omega
  refine ⟨⟨32 * ((i 1).val / 256) + 31, hlt⟩, (flush0_3 _).mpr (by show (32 * ((i 1).val / 256) + 31) % 32 = 31; omega), ?_⟩
  show i ∈ ((View.whole main_v1_1).slice (win0_3.rect ⟨32 * ((i 1).val / 256) + 31, hlt⟩)).set
  rw [View.set_slice_whole, Rect.mem_set_unit]
  intro a
  match a with
  | ⟨0, _⟩ =>
    show win0_3.index ⟨32 * ((i 1).val / 256) + 31, hlt⟩ (0 : Fin 2) * 1024 ≤ (i 0).val
      ∧ (i 0).val < win0_3.index ⟨32 * ((i 1).val / 256) + 31, hlt⟩ (0 : Fin 2) * 1024 + 1024
    rw [e30]; omega
  | ⟨1, _⟩ =>
    show win0_3.index ⟨32 * ((i 1).val / 256) + 31, hlt⟩ (1 : Fin 2) * 256 ≤ (i 1).val
      ∧ (i 1).val < win0_3.index ⟨32 * ((i 1).val / 256) + 31, hlt⟩ (1 : Fin 2) * 256 + 256
    rw [e31]; dsimp only; rw [ev]; omega

/-- The first result array: class sums of the features. -/
theorem sums_final (c : Dev nD) (k : Fin 1024) (e : Fin 512) :
    (dat0 (F := Ideal) V c).arrAt 2 cfg0.N (ix2 k e) = sums (feat V c) (labs V c) k e :=
  (congrFun ((dat0 (F := Ideal) V c).arrAt_eq_of_cover 2 (G2 V c) (flushed2_eq V c) cover2) (ix2 k e)).trans
    (G2_apply V c k e)

/-- The second result array: class sums of the squared features. -/
theorem sumsq_final (c : Dev nD) (k : Fin 1024) (e : Fin 512) :
    (dat0 (F := Ideal) V c).arrAt 3 cfg0.N (ix2 k e) = sumsq (feat V c) (labs V c) k e :=
  (congrFun ((dat0 (F := Ideal) V c).arrAt_eq_of_cover 3 (G3 V c) (flushed3_eq V c) cover3) (ix2 k e)).trans
    (G3_apply V c k e)

end Cert.KernelIdeal.Stats0

end
-- ==== Proof.Count0.lean ====
/-
  The first kernel region's third result array, read as a value: after the 2 x 32 grid points every one of its
  2 x 8 rows holds the class counts (the column sums of the one-hot rows of all samples).

  Per grid point the body adds, to every row of the 1 x 8 x 1024 count block, the column sums of the one-hot tile of
  the point's 2048 labels; the block is zeroed at the first point of each row of the grid and written back after the
  last. So the block written back is the sum over the 32 tiles of each tile's class counts, which is the count over
  all 65536 samples (addition of extended reals is associative, and zero is its unit).
-/
import proofs.«410598_j31885837205658_3_alg».proof.Proof.Gen.KernelIdeal.Frame
import proofs.«410598_j31885837205658_3_alg».proof.Proof.ClassStats
import proofs.«410598_j31885837205658_3_alg».proof.Proof.LibTileSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Count0

open Cert.KernelIdeal Cert.KernelIdeal.Gen Cert.ClassStats ValueIdx

/-! ## What one grid point leaves in the count block, as a term over the blocks it reads -/

section Pieces
variable {F : FTy → Type} [FloatOps F]

/-- The zero offsets of a whole-block access, at rank 2 and at rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a point that is not the first of its row of the grid the body leaves, in the count block's buffer holding
    `xo4`, its one covering store's payload over the label block `x1` and `xo4`. -/
theorem out_B4 (c : Dev nD) (i : grid0.Coords) (a2 : Memref sig .tc .vmem S2048x256 .f32) (h2 : a2.IsWhole)
    (a3 : Memref sig .tc .vmem S2048x1 .i32) (h3 : a3.IsWhole) (a4 : Memref sig .tc .vmem S1024x256 .f32) (h4 : a4.IsWhole)
    (a5 : Memref sig .tc .vmem S1024x256 .f32) (h5 : a5.IsWhole) (a6 : Memref sig .tc .vmem S1x8x1024 .f32) (h6 : a6.IsWhole)
    (hc : ¬cond0_0 i) (x0 : Vec F S2048x256 .f32) (x1 : Vec F S2048x1 .i32) (xo2 xo3 : Vec F S1024x256 .f32)
    (xo4 : Vec F S1x8x1024 .f32) :
    out0_B_4 c i a2 h2 a3 h3 a4 h4 a5 h5 a6 h6 hc x0 x1 xo2 xo3 xo4 = k0_pay1 (k0_pay9 x1 xo4) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h3.read_unread, h6.read_unread, View.ld_unit_zero (S := S2048x1) hz2,
    View.ld_unit_zero (S := S1x8x1024) hz3]

/-- At the first point of a row of the grid the body stores the zero block, reads it back, and leaves the same payload
    over the label block and the zero block. -/
theorem out_A4 (c : Dev nD) (i : grid0.Coords) (a2 : Memref sig .tc .vmem S2048x256 .f32) (h2 : a2.IsWhole)
    (a3 : Memref sig .tc .vmem S2048x1 .i32) (h3 : a3.IsWhole) (a4 : Memref sig .tc .vmem S1024x256 .f32) (h4 : a4.IsWhole)
    (a5 : Memref sig .tc .vmem S1024x256 .f32) (h5 : a5.IsWhole) (a6 : Memref sig .tc .vmem S1x8x1024 .f32) (h6 : a6.IsWhole)
    (hc : cond0_0 i) (x0 : Vec F S2048x256 .f32) (x1 : Vec F S2048x1 .i32) :
    out0_A_4 c i a2 h2 a3 h3 a4 h4 a5 h5 a6 h6 hc x0 x1 = k0_pay1 (k0_pay9 x1 (k0_pay4 (F := F))) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x8x1024) hz3]
  simp only [View.readAt_eq_ld, h3.read_unread, View.ld_unit_zero (S := S2048x1) hz2,
    View.readCov_unit_zero (S := S1x8x1024) _ hz3]

end Pieces

/-! ## That term at an index, over the extended reals -/

section Payload

/-- A compared-equal bit, widened to a word and read as a signed integer, is 1 where the two words agree and 0
    elsewhere. -/
theorem onehot_word (a b : BitVec 32) :
    ((((IntOp.cmpi .eq a b).setWidth 32).toInt : ℝ) : EReal) = if a = b then 1 else 0 := by
  by_cases h : a = b
  · have e : IntOp.cmpi .eq a b = 1#1 := by subst h; simp [IntOp.cmpi]
    have e1 : ((1#1 : BitVec 1).setWidth 32).toInt = 1 := by decide
    rw [if_pos h, e, e1]; simp
  · have hb : (a == b) = false := beq_eq_false_iff_ne.mpr h
    have e : IntOp.cmpi .eq a b = 0#1 := by
      show BitVec.ofBool (a == b) = 0#1
      rw [hb]; rfl
    have e0 : ((0#1 : BitVec 1).setWidth 32).toInt = 0 := by decide
    rw [if_neg h, e, e0]; simp

/-- The one-hot tile of a label block at (sample q, class k): the label column broadcast along the classes, compared
    with the class number, the bit converted to a float. -/
theorem onehot_apply (x1 : Vec Ideal S2048x1 .i32) (q : Fin 2048) (k : Fin 1024) :
    k0_pay5 (F := Ideal) x1 (ix2 q k) = oh (x1 (ix2 q (0 : Fin 1))) k.val := by
  have e1 : broadcastTo S2048x1024 (shapeCast S2048x1 x1 shapeCasts_S2048x1_S2048x1) broadcasts_S2048x1_S2048x1024 (ix2 q k)
      = x1 (ix2 q (0 : Fin 1)) := by
    refine (broadcastTo_apply _ _ (ix2 q k) (ix2 q (0 : Fin 1)) fun a => ?_).trans ?_
    · match a with
      | ⟨0, _⟩ => rfl
      | ⟨1, _⟩ => rfl
    · rw [shapeCast_self]
  have e2 : iota .tc S2048x1024 32 [1] iota_S2048x1024_d1_w32 (ix2 q k) = BitVec.ofNat 32 k.val :=
    iota_single_apply .tc S2048x1024 32 1 iota_S2048x1024_d1_w32 (ix2 q k)
  unfold k0_pay5
  show ((((IntOp.cmpi .eq (broadcastTo S2048x1024 (shapeCast S2048x1 x1 shapeCasts_S2048x1_S2048x1) broadcasts_S2048x1_S2048x1024 (ix2 q k))
    (iota .tc S2048x1024 32 [1] iota_S2048x1024_d1_w32 (ix2 q k))).setWidth 32).toInt : ℝ) : EReal) = _
  rw [e1, e2, onehot_word]
  rfl

/-- The sum over the 2048 rows of the one-hot tile, at class k: how many of the block's labels are k. -/
theorem lanesum_apply (x1 : Vec Ideal S2048x1 .i32) (k : Fin 1024)
    (hacc : (0x00000000#32 : BitVec 32) = 0x00000000#32) :
    multiReduction (F := Ideal) .add [0] S1024 (k0_pay5 (F := Ideal) x1) 0x00000000#32 reduces_S2048x1024_S1024 (.inl rfl) hacc (ix1 k)
      = ∑ q : Fin 2048, oh (x1 (ix2 q (0 : Fin 1))) k.val := by
  refine (Ideal.multiReduction_add_single (k0_pay5 (F := Ideal) x1) 0x00000000#32 reduces_S2048x1024_S1024 (.inl rfl) hacc (ix1 k)).trans ?_
  refine Finset.sum_congr rfl fun q _ => ?_
  have e : reduces_S2048x1024_S1024.lift (ix1 k) q = ix2 (q : Fin 2048) k := by
    funext a
    match a with
    | ⟨0, _⟩ => exact Fin.ext rfl
    | ⟨1, _⟩ => exact Fin.ext rfl
  rw [e]
  exact onehot_apply x1 q k

/-- What one point leaves at (row r, class k) of the count block: what was there plus the count of class k among the
    point's 2048 labels (the lane sum, broadcast over the 8 rows, added to the block). -/
theorem pay_apply (x1 : Vec Ideal S2048x1 .i32) (xo4 : Vec Ideal S1x8x1024 .f32) (u : Fin 1) (r : Fin 8) (k : Fin 1024) :
    k0_pay1 (F := Ideal) (k0_pay9 (F := Ideal) x1 xo4) (ix3 u r k)
      = xo4 (ix3 (0 : Fin 1) r k) + ∑ q : Fin 2048, oh (x1 (ix2 q (0 : Fin 1))) k.val := by
  unfold k0_pay1
  refine (shapeCast_ab_1ab_apply _ _ u r k).trans ?_
  unfold k0_pay9
  show shapeCast S8x1024 xo4 shapeCasts_S1x8x1024_S8x1024 (ix2 r k)
      + broadcastTo S8x1024 (shapeCast S1x1024 (shapeCast S1x1024 (multiReduction (F := Ideal) .add [0] S1024 (k0_pay5 (F := Ideal) x1) 0x00000000#32 reduces_S2048x1024_S1024 (.inl rfl) rfl) shapeCasts_S1024_S1x1024) shapeCasts_S1x1024_S1x1024) broadcasts_S1x1024_S8x1024 (ix2 r k) = _
  refine congrArg₂ (· + ·) (shapeCast_1ab_ab_apply xo4 _ r k) ?_
  refine (broadcastTo_1b_ab_apply _ _ r k).trans ?_
  rw [shapeCast_self]
  refine (shapeCast_a_1a_apply _ _ (0 : Fin 1) k).trans ?_
  exact lanesum_apply x1 k rfl

/-- The block the first point of a row of the grid stores before adding is zero everywhere. -/
theorem zero_apply (u : Fin 1) (r : Fin 8) (k : Fin 1024) : k0_pay4 (F := Ideal) (ix3 u r k) = 0 := by
  unfold k0_pay4
  refine (shapeCast_ab_1ab_apply _ _ u r k).trans ?_
  show Ideal.ofBits .f32 0x00000000#32 = 0
  exact Ideal.ofBits_zero_f32

end Payload

/-! ## The running sum over a row of the grid, the write-back, and the whole array -/

variable (V : (c : Dev nD) → (b : Ref sig .tc) → Buf (Elt Ideal) ((c : Thread nD τ).loc b))

/-- The labels as the region finds them (a column of one entry per sample). -/
abbrev labs (c : Dev nD) : Fin 65536 → BitVec 32 := fun n => V c main_v0 (ix2 n (0 : Fin 1))

/-- Sample `n`'s label for any natural `n` (past the last sample a word that is never read). -/
def labN (c : Dev nD) (n : ℕ) : BitVec 32 :=
  if h : n < 65536 then V c main_v0 (ix2 (⟨n, h⟩ : Fin 65536) (0 : Fin 1)) else 0#32

/-- How many of tile `s`'s 2048 samples (rows `2048 s` to `2048 s + 2047`) carry label `k`. -/
def tile (c : Dev nD) (k : ℕ) (s : ℕ) : EReal := ∑ q : Fin 2048, oh (labN V c (2048 * s + q.val)) k

/-- The label block point `t` reads: 2048 labels in one column. -/
abbrev lblk (c : Dev nD) (t : Fin cfg0.N) : Vec Ideal S2048x1 .i32 := iblk0 V c 1 t

/-- The printed index maps over the grid: the label window walks the 32 tiles along grid axis 1, the count window's
    block is the grid's axis-0 coordinate. -/
theorem idx1 : ∀ t : Fin cfg0.N, win0_1.index t (0 : Fin 2) = t.val % 32 ∧ win0_1.index t (1 : Fin 2) = 0 :=
  (by decide +kernel : ∀ t : Fin grid0.N, win0_1.index t (0 : Fin 2) = t.val % 32 ∧ win0_1.index t (1 : Fin 2) = 0)
theorem idx4 : ∀ t : Fin cfg0.N, win0_4.index t (0 : Fin 3) = t.val / 32 ∧ win0_4.index t (1 : Fin 3) = 0
    ∧ win0_4.index t (2 : Fin 3) = 0 :=
  (by decide +kernel : ∀ t : Fin grid0.N, win0_4.index t (0 : Fin 3) = t.val / 32 ∧ win0_4.index t (1 : Fin 3) = 0
    ∧ win0_4.index t (2 : Fin 3) = 0)

/-- Row `q` of the label block at point `t` is sample `2048 (t mod 32) + q`. -/
theorem lblk_apply (c : Dev nD) (t : Fin cfg0.N) (q : Fin 2048) :
    lblk V c t (ix2 q (0 : Fin 1)) = labN V c (2048 * (t.val % 32) + q.val) := by
  obtain ⟨e0, e1⟩ := idx1 t
  have hq := q.isLt
  have hlt : 2048 * (t.val % 32) + q.val < 65536 := by omega
  unfold labN
  rw [dif_pos hlt]
  show iblk0 V c 1 t (ix2 q (0 : Fin 1)) = _
  unfold iblk0
  rw [View.read_apply]
  show V c main_v0 _ = V c main_v0 _
  refine congrArg (V c main_v0) ?_
  funext a
  apply Fin.ext
  match a with
  | ⟨0, _⟩ => show win0_1.index t (0 : Fin 2) * 2048 + 1 * q.val = 2048 * (t.val % 32) + q.val; rw [e0]; omega
  | ⟨1, _⟩ => show win0_1.index t (1 : Fin 2) * 1 + 1 * 0 = 0; rw [e1]

/-- At the first point of a row of the grid the count block holds tile 0's counts. -/
theorem acc_A (c : Dev nD) (r : Fin 8) (k : Fin 1024) (t : Fin cfg0.N) (h0 : t.val % 32 = 0) :
    (outsAt0 V c t.val t.isLt).2.2 (ix3 (0 : Fin 1) r k) = tile V c k.val 0 := by
  rw [outsAt0_A V c t h0]
  dsimp only
  refine (congrFun (out_A4 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (iblk0 V c 0 t) (iblk0 V c 1 t)) (ix3 (0 : Fin 1) r k)).trans ?_
  refine (pay_apply (lblk V c t) (k0_pay4 (F := Ideal)) (0 : Fin 1) r k).trans ?_
  rw [zero_apply, zero_add]
  unfold tile
  refine Finset.sum_congr rfl fun q _ => ?_
  rw [lblk_apply V c t q, h0]

/-- At any other point it holds what the point before left plus the counts of the tile the point reads. -/
theorem acc_B (c : Dev nD) (r : Fin 8) (k : Fin 1024) (t : Fin cfg0.N) (h0 : ¬t.val % 32 = 0) :
    (outsAt0 V c t.val t.isLt).2.2 (ix3 (0 : Fin 1) r k)
      = (outsAt0 V c (t.val - 1) (Nat.lt_of_le_of_lt (Nat.sub_le _ _) t.isLt)).2.2 (ix3 (0 : Fin 1) r k)
        + tile V c k.val (t.val % 32) := by
  rw [outsAt0_B V c t h0]
  dsimp only
  refine (congrFun (out_B4 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2.1
    (outsAt0 V c (t.val - 1) (Nat.lt_of_le_of_lt (Nat.sub_le _ _) t.isLt)).2.2) (ix3 (0 : Fin 1) r k)).trans ?_
  refine (pay_apply (lblk V c t) (outsAt0 V c (t.val - 1) (Nat.lt_of_le_of_lt (Nat.sub_le _ _) t.isLt)).2.2 (0 : Fin 1) r k).trans ?_
  refine congrArg (_ + ·) ?_
  unfold tile
  refine Finset.sum_congr rfl fun q _ => ?_
  rw [lblk_apply V c t q]

/-- So after point `n` the count block holds the counts of tiles 0 to `n mod 32`: by induction on the point. -/
theorem acc_eq (c : Dev nD) (r : Fin 8) (k : Fin 1024) : ∀ (n : ℕ) (h : n < cfg0.N),
    (outsAt0 V c n h).2.2 (ix3 (0 : Fin 1) r k) = ∑ s ∈ Finset.range (n % 32 + 1), tile V c k.val s
  | 0, h => by
    refine (acc_A V c r k ⟨0, h⟩ rfl).trans ?_
    rw [Nat.zero_mod, Finset.sum_range_one]
  | n + 1, h => by
    by_cases h0 : (n + 1) % 32 = 0
    · refine (acc_A V c r k ⟨n + 1, h⟩ h0).trans ?_
      rw [h0, Finset.sum_range_one]
    · refine (acc_B V c r k ⟨n + 1, h⟩ h0).trans ?_
      show (outsAt0 V c n _).2.2 (ix3 (0 : Fin 1) r k) + tile V c k.val ((n + 1) % 32) = _
      rw [acc_eq c r k n (Nat.lt_of_succ_lt h)]
      have e : (n + 1) % 32 = n % 32 + 1 := by omega
      rw [e, Finset.sum_range_succ _ (n % 32 + 1)]

/-- The 32 tiles' counts add up to the count over all 65536 samples. -/
theorem sum_tiles_eq (c : Dev nD) (k : Fin 1024) :
    ∑ s ∈ Finset.range 32, tile V c k.val s = count (labs V c) k := by
  rw [Finset.sum_range]
  unfold tile Cert.ClassStats.count
  refine Eq.trans ?_ (Cert.LibTileSum.sum_tiles (a := 32) (b := 2048) (fun n : Fin (32 * 2048) => oh (labs V c n) k.val))
  refine Finset.sum_congr rfl fun s _ => Finset.sum_congr rfl fun q _ => ?_
  have hs := s.isLt
  have hq := q.isLt
  unfold labN
  rw [dif_pos (by omega)]
  rfl

/-- The count array as one function of its index: the class's count in every row. -/
abbrev G (c : Dev nD) : S2x8x1024.Idx → Elt Ideal .f32 := fun y => count (labs V c) (y 2)

/-- At a point that writes the count block back (the last of its row of the grid) the block holds the full counts. -/
theorem flush_row (c : Dev nD) (t : Fin cfg0.N) (h31 : t.val % 32 = 31) (y : S1x8x1024.Idx) :
    (outsAt0 V c t.val t.isLt).2.2 y = count (labs V c) (y 2) := by
  obtain ⟨u, r, k, rfl⟩ : ∃ (u : Fin 1) (r : Fin 8) (k : Fin 1024), y = ix3 u r k := ⟨y 0, y 1, y 2, eq_ix3 y⟩
  obtain rfl : u = 0 := Subsingleton.elim _ _
  rw [acc_eq V c r k t.val t.isLt, h31]
  exact sum_tiles_eq V c k

/-- What a flushing point writes back is its block of `G`. -/
theorem flushed_eq (c : Dev nD) (t : Fin cfg0.N) (hf : (cfg0.win 4).flush t = true) :
    (dat0 V c).flushed 4 t = ((cfg0.win 4).blk t).view.read (Elt Ideal) (G V c) := by
  have h31 : t.val % 32 = 31 := (flush0_4 t).mp hf
  obtain ⟨e0, e1, e2⟩ := idx4 t
  show (cfg0.win 4).cut (grid0.coords t) ((dat0 V c).after 4 t) = _
  rw [after0_4]
  funext y
  refine (flush_row V c t h31 ((cfg0.win 4).xinj (grid0.coords t) y)).trans ?_
  rw [View.read_apply, cast_eq]
  refine congrArg (Cert.ClassStats.count (labs V c)) (Fin.ext ?_)
  show (y 2).val = win0_4.index t (2 : Fin 3) * 1024 + 1 * (y 2).val
  rw [e2]; omega

/-- Slice `j` of the array is the block of the last point of row `j` of the grid. -/
theorem cover (c : Dev nD) (i : S2x8x1024.Idx) :
    ∃ t : Fin cfg0.N, (cfg0.win 4).flush t = true ∧ i ∈ ((cfg0.win 4).blk t).view.set := by
  have hN : cfg0.N = 64 := N_0
  have h0 : (i 0).val < 2 := (i 0).isLt
  have h1 : (i 1).val < 8 := (i 1).isLt
  have h2 : (i 2).val < 1024 := (i 2).isLt
  have hlt : 32 * (i 0).val + 31 < cfg0.N := by omega
  obtain ⟨e0, e1, e2⟩ := idx4 ⟨32 * (i 0).val + 31, hlt⟩
  refine ⟨⟨32 * (i 0).val + 31, hlt⟩, (flush0_4 _).mpr (by dsimp only; omega), ?_⟩
  show i ∈ ((View.whole main_v1_2).slice (win0_4.rect ⟨32 * (i 0).val + 31, hlt⟩)).set
  rw [View.set_slice_whole, Rect.mem_set_unit]
  intro a
  match a with
  | ⟨0, _⟩ =>
    show win0_4.index ⟨32 * (i 0).val + 31, hlt⟩ (0 : Fin 3) * 1 ≤ (i 0).val
      ∧ (i 0).val < win0_4.index ⟨32 * (i 0).val + 31, hlt⟩ (0 : Fin 3) * 1 + 1
    rw [e0]; dsimp only; omega
  | ⟨1, _⟩ =>
    show win0_4.index ⟨32 * (i 0).val + 31, hlt⟩ (1 : Fin 3) * 8 ≤ (i 1).val
      ∧ (i 1).val < win0_4.index ⟨32 * (i 0).val + 31, hlt⟩ (1 : Fin 3) * 8 + 8
    rw [e1]; omega
  | ⟨2, _⟩ =>
    show win0_4.index ⟨32 * (i 0).val + 31, hlt⟩ (2 : Fin 3) * 1024 ≤ (i 2).val
      ∧ (i 2).val < win0_4.index ⟨32 * (i 0).val + 31, hlt⟩ (2 : Fin 3) * 1024 + 1024
    rw [e2]; omega

/-- The third result array: the class counts, the same in each of its 2 x 8 rows. -/
theorem count_final (c : Dev nD) (j : Fin 2) (r : Fin 8) (k : Fin 1024) :
    (dat0 (F := Ideal) V c).arrAt 4 cfg0.N (ix3 j r k) = count (labs V c) k :=
  congrFun ((dat0 V c).arrAt_eq_of_cover 4 (G V c) (fun t hf => flushed_eq V c t hf) (cover c)) (ix3 j r k)

end Cert.KernelIdeal.Count0

end
-- ==== Proof.Gather1.lean ====
/-
  The second kernel region (the table look-up), read as a value: each sample's result row is the one-hot
  weighted sum of the table's rows.
-/
import proofs.«410598_j31885837205658_3_alg».proof.Proof.Gen.KernelIdeal.Frame
import proofs.«410598_j31885837205658_3_alg».proof.Proof.ClassStats
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Gather1

open Cert.KernelIdeal Cert.KernelIdeal.Gen Cert.ClassStats ValueIdx

variable (V : (c : Dev nD) → (b : Ref sig .tc) → Buf (Elt Ideal) ((c : Thread nD τ).loc b))

/-! ## One entry of the one-hot matrix -/

/-- The comparison bit of a label against class `k`, widened to a word and converted signed, is the one-hot entry:
    the bit is `1` exactly when the label is the word of `k`. -/
theorem onehot_word (l : BitVec 32) (k : ℕ) :
    ((((IntOp.cmpi .eq l (BitVec.ofNat 32 k)).setWidth 32).toInt : ℝ) : EReal) = oh l k := by
  unfold oh
  by_cases h : l = BitVec.ofNat 32 k
  · rw [if_pos h, h]
    have hb : IntOp.cmpi .eq (BitVec.ofNat 32 k) (BitVec.ofNat 32 k) = 1#1 := by simp [IntOp.cmpi]
    rw [hb, show ((1#1 : BitVec 1).setWidth 32).toInt = 1 from by decide]
    norm_cast
  · rw [if_neg h]
    have hb : IntOp.cmpi .eq l (BitVec.ofNat 32 k) = 0#1 := by
      show BitVec.ofBool (l == BitVec.ofNat 32 k) = 0#1
      rw [beq_eq_false_iff_ne.mpr h]; rfl
    rw [hb, show ((0#1 : BitVec 1).setWidth 32).toInt = 0 from by decide]
    norm_cast

/-! ## The product's operand indices, axis by axis

The product contracts the one-hot matrix's class axis with the table's row axis: at result index `(r, e)` and class
`k` it reads the one-hot matrix at `(r, k)` and the table at `(k, e)`. -/

theorem lhs_axis0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide),
    dif_pos (show (0 : Fin S2048x1024.rank) ∈ dot_S2048x1024_S1024x512_S2048x512_1_0_0_1_n_n.lhsNonContracting by decide)]
  rfl

theorem lhs_axis1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q

theorem rhs_axis0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q

theorem rhs_axis1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide),
    dif_pos (show (1 : Fin S1024x512.rank) ∈ dot_S2048x1024_S1024x512_S2048x512_1_0_0_1_n_n.rhsNonContracting by decide)]
  rfl

/-! ## The body's result at an index -/

/-- A broadcast of the label column along the class axis reads the row's label. -/
theorem label_bcast (x0 : IVec S2048x1 32) (r : Fin 2048) (k : Fin 1024) :
    broadcastTo S2048x1024 x0 broadcasts_S2048x1_S2048x1024 (ix2 r k) = x0 (ix2 r (0 : Fin 1)) :=
  broadcastTo_apply x0 broadcasts_S2048x1_S2048x1024 (ix2 r k) (ix2 r (0 : Fin 1)) (fun a => by
    match a with
    | ⟨0, _⟩ => rfl
    | ⟨1, _⟩ => rfl)

/-- The body's product at row `r` and feature `e`: the one-hot row of the row's label against the table's column `e`. -/
theorem pay_apply (x0 : Vec Ideal S2048x1 .i32) (x1 : Vec Ideal S1024x512 .bf16) (r : Fin 2048) (e : Fin 512) :
    k1_pay1 (F := Ideal) x0 x1 (ix2 r e)
      = ∑ k : Fin 1024, oh (x0 (ix2 r (0 : Fin 1))) k.val * x1 (ix2 k e) := by
  unfold k1_pay1
  refine (Ideal.matmul_constant_zero_apply dot_S2048x1024_S1024x512_S2048x512_1_0_0_1_n_n none _ _ (ix2 r e)).trans ?_
  rw [← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 r e) ((contrEquiv1 dot_S2048x1024_S1024x512_S2048x512_1_0_0_1_n_n 1024 rfl rfl).symm k) = ix2 r k :=
    funext fun a => Fin.ext (by
      match a with
      | ⟨0, _⟩ => exact lhs_axis0 _ _
      | ⟨1, _⟩ => exact (lhs_axis1 _ _).trans hk)
  have er : dot_S2048x1024_S1024x512_S2048x512_1_0_0_1_n_n.rhsIdx (ix2 r e) ((contrEquiv1 dot_S2048x1024_S1024x512_S2048x512_1_0_0_1_n_n 1024 rfl rfl).symm k) = ix2 k e :=
    funext fun a => Fin.ext (by
      match a with
      | ⟨0, _⟩ => exact (rhs_axis0 _ _).trans hk
      | ⟨1, _⟩ => exact rhs_axis1 _ _)
  rw [el, er, shapeCast_self, shapeCast_self]
  show ((((IntOp.cmpi .eq (broadcastTo S2048x1024 x0 broadcasts_S2048x1_S2048x1024 (ix2 r k))
      (iota .tc S2048x1024 32 [1] iota_S2048x1024_d1_w32 (ix2 r k))).setWidth 32).toInt : ℝ) : EReal) * x1 (ix2 k e) = _
  rw [label_bcast, iota_single_apply]
  exact congrArg (· * x1 (ix2 k e)) (onehot_word _ _)

/-! ## From blocks to the array -/

theorem hz : (![0, 0] : Fin 2 → Nat) = fun _ => 0 :=
  funext fun a => by match a with | ⟨0, _⟩ => rfl | ⟨1, _⟩ => rfl

/-- What the body leaves in the result's buffer, at row `r` and feature `e`, from the two blocks it loaded: its one
    store covers the buffer, and its payload is the product above. -/
theorem out_block_apply (x0 : Vec Ideal S2048x1 .i32) (x1 : Vec Ideal S1024x512 .bf16) (r : Fin 2048) (e : Fin 512) :
    out1_2 (F := Ideal) x0 x1 (ix2 r e)
      = ∑ k : Fin 1024, oh (x0 (ix2 r (0 : Fin 1))) k.val * x1 (ix2 k e) := by
  unfold out1_2
  rw [View.canon_unit_zero hz]
  simp only [View.ld_unit_zero (S := S2048x1) hz, View.ld_unit_zero (S := S1024x512) hz]
  exact pay_apply x0 x1 r e

/-- The block indices over the grid: point `t` takes the label column's and the result's block `t` of rows, and the
    whole table. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the label block at point `t` is sample `2048 t + r`'s label. -/
theorem label_block_apply (c : Dev nD) (t : Fin cfg1.N) (r : Fin 2048) (n : Fin 65536)
    (hn : n.val = 2048 * t.val + r.val) :
    (iblk1 (F := Ideal) V c 0 t : Vec Ideal S2048x1 .i32) (ix2 r (0 : Fin 1)) = V c main_v0 (ix2 n (0 : Fin 1)) := by
  obtain ⟨e0, e1, -⟩ := idx_facts t
  unfold iblk1
  rw [View.read_apply]
  show V c main_v0 (((cfg1.win 0).blk t).view.emb (ix2 r (0 : Fin 1))) = V c main_v0 (ix2 n (0 : Fin 1))
  refine congrArg (V c main_v0) (funext fun a => Fin.ext ?_)
  match a with
  | ⟨0, _⟩ => show win1_0.index t (0 : Fin 2) * 2048 + 1 * r.val = n.val; rw [e0, hn]; omega
  | ⟨1, _⟩ => show win1_0.index t (1 : Fin 2) * 1 + 1 * 0 = 0; rw [e1]

/-- The table's block at every point is the whole table. -/
theorem table_block_apply (c : Dev nD) (t : Fin cfg1.N) (k : Fin 1024) (e : Fin 512) :
    (iblk1 (F := Ideal) V c 1 t : Vec Ideal S1024x512 .bf16) (ix2 k e) = V c main_v17 (ix2 k e) := by
  obtain ⟨-, -, e2, e3, -⟩ := idx_facts t
  unfold iblk1
  rw [View.read_apply]
  show V c main_v17 (((cfg1.win 1).blk t).view.emb (ix2 k e)) = V c main_v17 (ix2 k e)
  refine congrArg (V c main_v17) (funext fun a => Fin.ext ?_)
  match a with
  | ⟨0, _⟩ => show win1_1.index t (0 : Fin 2) * 1024 + 1 * k.val = k.val; rw [e2]; omega
  | ⟨1, _⟩ => show win1_1.index t (1 : Fin 2) * 512 + 1 * e.val = e.val; rw [e3]; omega

/-- The look-up as ONE function of the contents the region finds: sample `n`'s row is the sum, over the classes, of the
    one-hot entry of its label times the table's row. -/
def gathered (c : Dev nD) : S65536x512.Idx → Elt Ideal .f32 := fun i =>
  ∑ k : Fin 1024, oh (V c main_v0 (ix2 (i 0 : Fin 65536) (0 : Fin 1))) k.val * V c main_v17 (ix2 k (i 1 : Fin 512))

/-- What point `t` writes back is block `t` of that function: row `r` of the block is sample `2048 t + r`. -/
theorem flushed_eq (c : Dev nD) (t : Fin cfg1.N) :
    (dat1 (F := Ideal) V c).flushed 2 t = ((cfg1.win 2).blk t).view.read (Elt Ideal) (gathered V c) := by
  show (cfg1.win 2).cut (grid1.coords t) ((dat1 (F := Ideal) V c).after 2 t) = _
  rw [after1_2]
  funext j
  obtain ⟨r, e, rfl⟩ : ∃ (r : Fin 2048) (e : Fin 512), j = ix2 r e := ⟨j 0, j 1, eq_ix2 (n0 := 2048) (n1 := 512) j⟩
  obtain ⟨-, -, -, -, e4, e5⟩ := idx_facts t
  have ht : t.val < 32 := lt_of_lt_of_eq t.isLt (N_1 : cfg1.N = 32)
  show out1_2 (iblk1 V c 0 t) (iblk1 V c 1 t) (ix2 r e) = gathered V c (((cfg1.win 2).blk t).view.emb (ix2 r e))
  refine (out_block_apply (iblk1 V c 0 t) (iblk1 V c 1 t) r e).trans ?_
  have hemb : ((cfg1.win 2).blk t).view.emb (ix2 r e)
      = (ix2 (⟨2048 * t.val + r.val, by omega⟩ : Fin 65536) e : S65536x512.Idx) :=
    funext fun a => Fin.ext (by
      match a with
      | ⟨0, _⟩ => show win1_2.index t (0 : Fin 2) * 2048 + 1 * r.val = 2048 * t.val + r.val; rw [e4]; omega
      | ⟨1, _⟩ => show win1_2.index t (1 : Fin 2) * 512 + 1 * e.val = e.val; rw [e5]; omega)
  rw [hemb]
  show _ = ∑ k : Fin 1024, oh (V c main_v0 (ix2 (⟨2048 * t.val + r.val, by omega⟩ : Fin 65536) (0 : Fin 1))) k.val * V c main_v17 (ix2 k e)
  refine Finset.sum_congr rfl fun k _ => ?_
  rw [label_block_apply V c t r ⟨2048 * t.val + r.val, by omega⟩ rfl, table_block_apply V c t k e]

/-- An index of the result array is in point `t`'s block iff each coordinate is in the block's range on its axis. -/
theorem mem_blk (t : Fin cfg1.N) (i : S65536x512.Idx) :
    i ∈ ((cfg1.win 2).blk t).view.set
      ↔ ∀ a : Fin 2, win1_2.index t a * S2048x512.size a ≤ (i a).val
          ∧ (i a).val < win1_2.index t a * S2048x512.size a + S2048x512.size a := by
  show i ∈ ((View.whole main_v18).slice (win1_2.rect t)).set ↔ _
  rw [View.set_slice_whole, Rect.mem_set_unit]
  exact Iff.rfl

/-- Every row of the result array is written back by the point that holds its block: row `n` by point `n / 2048`. -/
theorem covered (i : S65536x512.Idx) :
    ∃ t : Fin cfg1.N, (cfg1.win 2).flush t = true ∧ i ∈ ((cfg1.win 2).blk t).view.set := by
  have hi0 : (i 0).val < 65536 := (i 0).isLt
  have hi1 : (i 1).val < 512 := (i 1).isLt
  obtain ⟨t, ht⟩ : ∃ t : Fin cfg1.N, t.val = (i 0).val / 2048 :=
    ⟨⟨(i 0).val / 2048, by rw [show cfg1.N = 32 from N_1]; omega⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 2048 ≤ (i 0).val ∧ (i 0).val < win1_2.index t (0 : Fin 2) * 2048 + 2048
    rw [e4, ht]; omega
  | ⟨1, _⟩ =>
    show win1_2.index t (1 : Fin 2) * 512 ≤ (i 1).val ∧ (i 1).val < win1_2.index t (1 : Fin 2) * 512 + 512
    rw [e5]; omega

/-- The result array after the region: sample `n`'s row is the one-hot weighted sum of the table's rows. -/
theorem out_final (c : Dev nD) (n : Fin 65536) (e : Fin 512) :
    (dat1 (F := Ideal) V c).arrAt 2 cfg1.N (ix2 n e)
      = ∑ k : Fin 1024, oh (V c main_v0 (ix2 n (0 : Fin 1))) k.val * V c main_v17 (ix2 k e) := by
  rw [(dat1 (F := Ideal) V c).arrAt_eq_of_cover 2 (gathered V c) (fun t _ => flushed_eq V c t) (fun i => covered i)]
  rfl

end Cert.KernelIdeal.Gather1

end
-- ==== Proof.HostGlue.lean ====
/-
  The host operations around the two kernel regions, read at an index: the label column is the label
  vector, and the table the second region reads is, entry by entry, the clipped square root of
  (mean of squares - squared mean) of the first region's three result arrays.
-/
import proofs.«410598_j31885837205658_3_alg».proof.Proof.Gen.KernelIdeal.Frame
import proofs.«410598_j31885837205658_3_alg».proof.Proof.ClassStats
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

noncomputable section

open Idealize.ShloMosaic Idealize.ShloMosaic.TcCoe Idealize.SL.Sem
open Idealize.ShloMosaic.Pipeline (Dat)

namespace Cert.KernelIdeal.HostGlue

open Cert.KernelIdeal Cert.KernelIdeal.Gen Cert.ClassStats ValueIdx

/-! ## The host operations' terms read at an index, over any arrays -/

section Pure

/-- A vector over the classes broadcast along the features: first to a column, then across the columns. -/
private abbrev bdiv (d : S1024.Idx → EReal) : S1024x512.Idx → EReal :=
  broadcastInDim S1024x512 ![0, 1] bcast_S1024x1_S1024x512_0_1 (broadcastInDim S1024x1 ![0] bcast_S1024_S1024x1_0 d)

/-- Entry (k, e) of the broadcast is entry k of the vector. -/
private theorem bdiv_apply (d : S1024.Idx → EReal) (k : Fin 1024) (e : Fin 512) : bdiv d (ix2 k e) = d (ix1 k) := by
  refine (broadcastInDim_apply _ _ _ (ix2 k e) (ix2 k (0 : Fin 1)) fun a => ?_).trans
    (broadcastInDim_apply _ _ _ (ix2 k (0 : Fin 1)) (ix1 k) fun a => ?_)
  · match a with
    | ⟨0, _⟩ => rfl
    | ⟨1, _⟩ => rfl
  · match a with
    | ⟨0, _⟩ => rfl

/-- Row 0 of slice 0 of a 2 x 8 x 1024 array, as a vector: the slice [0:1, 0:1, 0:1024] flattened. -/
private abbrev crow (n3 : S2x8x1024.Idx → EReal) : S1024.Idx → EReal :=
  shapeCast S1024 (extractStridedSlice S1x1x1024 ![0, 0, 0] n3 slices_S2x8x1024_S1x1x1024_0_0_0) shapeCasts_S1x1x1024_S1024

/-- Entry k of that vector is entry (0, 0, k) of the array: the flattening keeps the row-major position, the slice
    starts at the origin. -/
private theorem crow_apply (n3 : S2x8x1024.Idx → EReal) (k : Fin 1024) : crow n3 (ix1 k) = n3 (ix3 (0 : Fin 2) (0 : Fin 8) k) := by
  refine (shapeCast_apply _ _ (ix1 k) (ix3 (0 : Fin 1) (0 : Fin 1) k) ?_).trans
    (extractStridedSlice_apply _ _ _ (ix3 (0 : Fin 1) (0 : Fin 1) k) (ix3 (0 : Fin 2) (0 : Fin 8) k) fun a => ?_)
  · rw [Shape.rowMajor_val_one, Shape.rowMajor_val_three]
    show ((0 * 1 + 0) * 1024 + k.val) = k.val
    omega
  · match a with
    | ⟨0, _⟩ => rfl
    | ⟨1, _⟩ => rfl
    | ⟨2, _⟩ =>
      show k.val = 0 + k.val
      omega

/-- Selecting on "x equals zero" between one and x: one where x is zero, x elsewhere. -/
private theorem select_cmp_zero (x : EReal) : Scalar.select (Ideal.cmp .oeq x 0) (1 : EReal) x = if x = 0 then 1 else x := by
  unfold Ideal.cmp Scalar.select
  by_cases h : x = 0
  · simp [h]
  · simp [h]

/-- The divisor read at class k: the count row compared with the zero vector, the comparison selecting between the
    ones vector (the bit pattern 0x3F800000 is 1) and the count row. -/
private theorem divisor_apply (n3 : S2x8x1024.Idx → EReal) (k : Fin 1024) :
    (select (cmpf .oeq (crow n3 : FVec Ideal S1024 .f32) (broadcastInDim S1024 ![] bcast_S_S1024 (constant (F := Ideal) S_ .f32 0x00000000#32)))
        (broadcastInDim S1024 ![] bcast_S_S1024 (constant (F := Ideal) S_ .f32 0x3F800000#32))
        (crow n3) : S1024.Idx → EReal) (ix1 k)
      = if n3 (ix3 (0 : Fin 2) (0 : Fin 8) k) = 0 then 1 else n3 (ix3 (0 : Fin 2) (0 : Fin 8) k) := by
  have h0 : broadcastInDim S1024 ![] bcast_S_S1024 (constant (F := Ideal) S_ .f32 0x00000000#32) (ix1 k) = (0 : EReal) := by
    rw [broadcastInDim_scalar_apply]; exact Ideal.ofBits_zero_f32
  have h1 : broadcastInDim S1024 ![] bcast_S_S1024 (constant (F := Ideal) S_ .f32 0x3F800000#32) (ix1 k) = (1 : EReal) := by
    rw [broadcastInDim_scalar_apply]; exact Ideal.ofBits_one_f32
  show Scalar.select (Ideal.cmp .oeq (crow n3 (ix1 k)) (broadcastInDim S1024 ![] bcast_S_S1024 (constant (F := Ideal) S_ .f32 0x00000000#32) (ix1 k)))
      (broadcastInDim S1024 ![] bcast_S_S1024 (constant (F := Ideal) S_ .f32 0x3F800000#32) (ix1 k)) (crow n3 (ix1 k)) = _
  rw [h0, h1, crow_apply]
  exact select_cmp_zero _

/-- The table's term read at entry (k, e), given what the two arrays hold there (s, q) and the divisor at k (n): every
    operation is elementwise and exact on the extended reals, the conversion to bf16 the identity, the zero splat 0. -/
private theorem table_apply (a0 a1 : FVec Ideal S1024x512 .f32) (d : S1024.Idx → EReal) (k : Fin 1024) (e : Fin 512)
    (s q n : EReal) (hs : a0 (ix2 k e) = s) (hq : a1 (ix2 k e) = q) (hn : d (ix1 k) = n) :
    (truncf .bf16 (Host.sqrt (maximumf
        (subf (Host.divf a1 (bdiv d)) (mulf (Host.divf a0 (bdiv d)) (Host.divf a0 (bdiv d))))
        (broadcastInDim S1024x512 ![] bcast_S_S1024x512 (constant (F := Ideal) S_ .f32 0x00000000#32)) : FVec Ideal S1024x512 .f32)) bitsLt_bf16_f32
        : FVec Ideal S1024x512 .bf16) (ix2 k e)
      = Ideal.sqrt (max (Ideal.div q n - Ideal.div s n * Ideal.div s n) 0) := by
  have h0 : broadcastInDim S1024x512 ![] bcast_S_S1024x512 (constant (F := Ideal) S_ .f32 0x00000000#32) (ix2 k e) = (0 : EReal) := by
    rw [broadcastInDim_scalar_apply]; exact Ideal.ofBits_zero_f32
  show Ideal.sqrt (max (Ideal.div (a1 (ix2 k e)) (bdiv d (ix2 k e)) - Ideal.div (a0 (ix2 k e)) (bdiv d (ix2 k e)) * Ideal.div (a0 (ix2 k e)) (bdiv d (ix2 k e)))
      (broadcastInDim S1024x512 ![] bcast_S_S1024x512 (constant (F := Ideal) S_ .f32 0x00000000#32) (ix2 k e))) = _
  rw [h0, bdiv_apply, hs, hq, hn]

end Pure

/-! ## Each stretch of host operations, from any contents X: what it leaves in the buffers read later -/

section Stages
variable (X : Valuation τ sig (Elt Ideal))

/-- The three arrays of X the table is computed from, at their literal types. -/
private abbrev xs : S1024x512.Idx → EReal := X (Proc.devRef .tc main_v1_0)
private abbrev xq : S1024x512.Idx → EReal := X (Proc.devRef .tc main_v1_1)
private abbrev xn : S2x8x1024.Idx → EReal := X (Proc.devRef .tc main_v1_2)

/-- The stretch before the first region leaves the label column: the label vector reshaped. -/
private theorem after0_v0 : (StableHlo.after hostOps0 X (Proc.devRef .tc main_v0) : S65536x1.Idx → BitVec 32)
    = shapeCast S65536x1 (X (Proc.devRef .tc main_arg1) : S65536.Idx → BitVec 32) shapeCasts_S65536_S65536x1 := by
  dsimp only [hostOps0]
  after_results
  rfl

/-- The first stretch after the first region leaves the count row, -/
private theorem after1_v3 : (StableHlo.after hostOps1 X (Proc.devRef .tc main_v3) : S1024.Idx → EReal)
    = crow (X (Proc.devRef .tc main_v1_2)) := by
  dsimp only [hostOps1]
  after_results
  rfl

/-- its comparison with the zero vector, -/
private theorem after1_v5 : (StableHlo.after hostOps1 X (Proc.devRef .tc main_v5) : S1024.Idx → BitVec 1)
    = cmpf .oeq (crow (X (Proc.devRef .tc main_v1_2)) : FVec Ideal S1024 .f32)
        (broadcastInDim S1024 ![] bcast_S_S1024 (constant (F := Ideal) S_ .f32 0x00000000#32)) := by
  dsimp only [hostOps1]
  after_results
  rfl

/-- and the scalar one; -/
private theorem after1_cst0 : (StableHlo.after hostOps1 X (Proc.devRef .tc main_cst_0) : S_.Idx → EReal)
    = constant (F := Ideal) S_ .f32 0x3F800000#32 := by
  dsimp only [hostOps1]
  after_results

/-- it writes none of the first region's arrays, nor the label column. -/
private theorem after1_v1_0 : StableHlo.after hostOps1 X (Proc.devRef .tc main_v1_0) = X (Proc.devRef .tc main_v1_0) := by
  dsimp only [hostOps1]
  after_results
private theorem after1_v1_1 : StableHlo.after hostOps1 X (Proc.devRef .tc main_v1_1) = X (Proc.devRef .tc main_v1_1) := by
  dsimp only [hostOps1]
  after_results
private theorem after1_v0 : StableHlo.after hostOps1 X (Proc.devRef .tc main_v0) = X (Proc.devRef .tc main_v0) := by
  dsimp only [hostOps1]
  after_results

/-- The second stretch leaves the divisor: the select between the broadcast one and the count row. -/
private theorem after2_v6 : (StableHlo.after hostOps1_1 X (Proc.devRef .tc main_v6) : S1024.Idx → EReal)
    = select (X (Proc.devRef .tc main_v5) : S1024.Idx → BitVec 1)
        (broadcastInDim S1024 ![] bcast_S_S1024 (X (Proc.devRef .tc main_cst_0) : S_.Idx → EReal))
        (X (Proc.devRef .tc main_v3) : S1024.Idx → EReal) := by
  dsimp only [hostOps1_1]
  after_results
  rfl

private theorem after2_v1_0 : StableHlo.after hostOps1_1 X (Proc.devRef .tc main_v1_0) = X (Proc.devRef .tc main_v1_0) := by
  dsimp only [hostOps1_1]
  after_results
private theorem after2_v1_1 : StableHlo.after hostOps1_1 X (Proc.devRef .tc main_v1_1) = X (Proc.devRef .tc main_v1_1) := by
  dsimp only [hostOps1_1]
  after_results
private theorem after2_v0 : StableHlo.after hostOps1_1 X (Proc.devRef .tc main_v0) = X (Proc.devRef .tc main_v0) := by
  dsimp only [hostOps1_1]
  after_results

/-- The third stretch leaves the table: both arrays divided by the broadcast divisor, the second quotient less the
    square of the first, clipped at zero, its square root, converted. -/
private theorem after3_v17 : (StableHlo.after hostOps1_2 X (Proc.devRef .tc main_v17) : S1024x512.Idx → EReal)
    = truncf .bf16 (Host.sqrt (maximumf
        (subf (Host.divf (X (Proc.devRef .tc main_v1_1) : FVec Ideal S1024x512 .f32) (bdiv (X (Proc.devRef .tc main_v6))))
          (mulf (Host.divf (X (Proc.devRef .tc main_v1_0) : FVec Ideal S1024x512 .f32) (bdiv (X (Proc.devRef .tc main_v6))))
                (Host.divf (X (Proc.devRef .tc main_v1_0) : FVec Ideal S1024x512 .f32) (bdiv (X (Proc.devRef .tc main_v6))))))
        (broadcastInDim S1024x512 ![] bcast_S_S1024x512 (constant (F := Ideal) S_ .f32 0x00000000#32)) : FVec Ideal S1024x512 .f32)) bitsLt_bf16_f32 := by
  dsimp only [hostOps1_2]
  after_results

private theorem after3_v0 : StableHlo.after hostOps1_2 X (Proc.devRef .tc main_v0) = X (Proc.devRef .tc main_v0) := by
  dsimp only [hostOps1_2]
  after_results

/-- The divisor at class k after the first two stretches: the count at (0, 0, k), a zero count replaced by one. -/
private theorem divisor_chain (k : Fin 1024) :
    (StableHlo.after hostOps1_1 (StableHlo.after hostOps1 X) (Proc.devRef .tc main_v6) : S1024.Idx → EReal) (ix1 k)
      = if xn X (ix3 (0 : Fin 2) (0 : Fin 8) k) = 0 then 1 else xn X (ix3 (0 : Fin 2) (0 : Fin 8) k) := by
  rw [after2_v6, after1_v5, after1_cst0, after1_v3]
  exact divisor_apply _ k

/-- The table at entry (k, e) after the three stretches, in the entries of X's three arrays. -/
private theorem table_chain (k : Fin 1024) (e : Fin 512) :
    (StableHlo.after hostOps1_2 (StableHlo.after hostOps1_1 (StableHlo.after hostOps1 X)) (Proc.devRef .tc main_v17) : S1024x512.Idx → EReal) (ix2 k e)
      = Ideal.sqrt (max
          (Ideal.div (xq X (ix2 k e)) (if xn X (ix3 (0 : Fin 2) (0 : Fin 8) k) = 0 then 1 else xn X (ix3 (0 : Fin 2) (0 : Fin 8) k))
            - Ideal.div (xs X (ix2 k e)) (if xn X (ix3 (0 : Fin 2) (0 : Fin 8) k) = 0 then 1 else xn X (ix3 (0 : Fin 2) (0 : Fin 8) k))
              * Ideal.div (xs X (ix2 k e)) (if xn X (ix3 (0 : Fin 2) (0 : Fin 8) k) = 0 then 1 else xn X (ix3 (0 : Fin 2) (0 : Fin 8) k))) 0) := by
  rw [after3_v17]
  exact table_apply _ _ _ k e _ _ _
    (congrFun ((after2_v1_0 _).trans (after1_v1_0 X)) (ix2 k e))
    (congrFun ((after2_v1_1 _).trans (after1_v1_1 X)) (ix2 k e))
    (divisor_chain X k)

end Stages

/-! ## The four readings -/

variable (m : (ℓ : Loc nD τ sig) → Buf (Elt Ideal) ℓ) (ρ : Dev nD → PrngReg)

/-- The first region finds the features as launched. -/
theorem V1_feat (c : Dev nD) : V1 m ρ c main_arg0 = m ((c.tc : Thread nD τ).loc main_arg0) := by
  show StableHlo.after hostOps0 (W0 m ρ c) (Proc.devRef .tc main_arg0) = _
  dsimp only [hostOps0]
  after_results

/-- The first region finds the labels as a column of the launched label vector. -/
theorem V1_lab (c : Dev nD) (n : Fin 65536) :
    V1 m ρ c main_v0 (ix2 n (0 : Fin 1)) = m ((c.tc : Thread nD τ).loc main_arg1) (ix1 n) := by
  refine (congrFun (after0_v0 (W0 m ρ c)) (ix2 n (0 : Fin 1))).trans ?_
  refine (shapeCast_apply _ _ _ (ix1 n) ?_).trans rfl
  rw [Shape.rowMajor_val_one, Shape.rowMajor_val_two]
  show n.val = n.val * 1 + 0
  omega

/-- The label column is an input of the first region and no later host operation writes it: the second region finds
    what the first found. -/
private theorem W5_lab (c : Dev nD) : W5 m ρ c (Proc.devRef .tc main_v0) = W1 m ρ c (Proc.devRef .tc main_v0) :=
  calc W5 m ρ c (Proc.devRef .tc main_v0)
    _ = W4 m ρ c (Proc.devRef .tc main_v0) := after3_v0 _
    _ = W3 m ρ c (Proc.devRef .tc main_v0) := after2_v0 _
    _ = W2 m ρ c (Proc.devRef .tc main_v0) := after1_v0 _
    _ = W1 m ρ c (Proc.devRef .tc main_v0) := (W2_arr m ρ c 1).trans (((dat0 (V1 m ρ) c).arrAt_in 1 rfl _).trans (A_eq0 (V1 m ρ) c 1))

/-- So does the second region. -/
theorem V5_lab (c : Dev nD) (n : Fin 65536) :
    V5 m ρ c main_v0 (ix2 n (0 : Fin 1)) = m ((c.tc : Thread nD τ).loc main_arg1) (ix1 n) :=
  (congrFun (W5_lab m ρ c) (ix2 n (0 : Fin 1))).trans (V1_lab m ρ c n)

/-- The first region's result arrays as they stand at its exit: the class sums, the class sums of squares, and
    the counts (row 0 of slice 0 of the third array). -/
abbrev exitSums (c : Dev nD) : Fin 1024 → Fin 512 → EReal := fun k e => W2 m ρ c (Proc.devRef .tc main_v1_0) (ix2 k e)
abbrev exitSumsq (c : Dev nD) : Fin 1024 → Fin 512 → EReal := fun k e => W2 m ρ c (Proc.devRef .tc main_v1_1) (ix2 k e)
abbrev exitCount (c : Dev nD) : Fin 1024 → EReal := fun k => W2 m ρ c (Proc.devRef .tc main_v1_2) (ix3 (0 : Fin 2) (0 : Fin 8) k)
/-- The divisor the host computes: the count, an empty class's replaced by one. -/
abbrev exitCnt (c : Dev nD) (k : Fin 1024) : EReal := if exitCount m ρ c k = 0 then 1 else exitCount m ρ c k

/-- The table the second region reads, entry by entry: the clipped square root of mean of squares minus squared
    mean of the first region's result arrays. -/
theorem V5_table (c : Dev nD) (k : Fin 1024) (e : Fin 512) :
    V5 m ρ c main_v17 (ix2 k e)
      = Ideal.sqrt (max (Ideal.div (exitSumsq m ρ c k e) (exitCnt m ρ c k)
          - Ideal.div (exitSums m ρ c k e) (exitCnt m ρ c k) * Ideal.div (exitSums m ρ c k e) (exitCnt m ρ c k)) 0) :=
  table_chain (W2 m ρ c) k e

end Cert.KernelIdeal.HostGlue

end
-- ==== Proof.KernelValue.lean ====
/-
  The kernel program's result array, entry by entry: sample `n`'s row is the one-hot reading of its class's
  standard deviation (`ClassStats.outK`) of the launched features and labels.

  The second region's array is the one-hot weighted sum of the table's rows; the table is, entry by entry, the
  clipped square root of mean of squares minus squared mean of the first region's three arrays; and those hold
  the one-hot weighted class sums, sums of squares and counts of the launched arrays.
-/
import proofs.«410598_j31885837205658_3_alg».proof.Proof.KernelRun
import proofs.«410598_j31885837205658_3_alg».proof.Proof.Stats0
import proofs.«410598_j31885837205658_3_alg».proof.Proof.Count0
import proofs.«410598_j31885837205658_3_alg».proof.Proof.Gather1
import proofs.«410598_j31885837205658_3_alg».proof.Proof.HostGlue

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.ClassStats ValueIdx

variable (m : (ℓ : Loc nD τ sig) → Buf (Elt Ideal) ℓ) (ρ : Dev nD → PrngReg)

/-- The launched features, by sample and feature. -/
abbrev feats (c : Dev nD) : Fin 65536 → Fin 512 → EReal := fun n e => m ((c.tc : Thread nD τ).loc main_arg0) (ix2 n e)
/-- The launched labels. -/
abbrev labels (c : Dev nD) : Fin 65536 → BitVec 32 := fun n => m ((c.tc : Thread nD τ).loc main_arg1) (ix1 n)

/-- The first region finds the launched features and labels. -/
theorem feat_eq (c : Dev nD) : Stats0.feat (V1 m ρ) c = feats m c :=
  funext fun n => funext fun e => congrFun (HostGlue.V1_feat m ρ c) (ix2 n e)
theorem labs_eq (c : Dev nD) : Stats0.labs (V1 m ρ) c = labels m c := funext fun n => HostGlue.V1_lab m ρ c n
theorem labs_eq' (c : Dev nD) : Count0.labs (V1 m ρ) c = labels m c := funext fun n => HostGlue.V1_lab m ρ c n

/-- The first region's arrays at its exit are the class sums, sums of squares and counts of the launched arrays. -/
theorem exitSums_eq (c : Dev nD) (k : Fin 1024) (e : Fin 512) : HostGlue.exitSums m ρ c k e = sums (feats m c) (labels m c) k e := by
  show W2 m ρ c (Proc.devRef .tc (Pipeline.arrRef spec0 2)) (ix2 k e) = _
  rw [W2_arr m ρ c 2, Stats0.sums_final, feat_eq, labs_eq]
theorem exitSumsq_eq (c : Dev nD) (k : Fin 1024) (e : Fin 512) : HostGlue.exitSumsq m ρ c k e = sumsq (feats m c) (labels m c) k e := by
  show W2 m ρ c (Proc.devRef .tc (Pipeline.arrRef spec0 3)) (ix2 k e) = _
  rw [W2_arr m ρ c 3, Stats0.sumsq_final, feat_eq, labs_eq]
theorem exitCount_eq (c : Dev nD) (k : Fin 1024) : HostGlue.exitCount m ρ c k = count (labels m c) k := by
  show W2 m ρ c (Proc.devRef .tc (Pipeline.arrRef spec0 4)) (ix3 (0 : Fin 2) (0 : Fin 8) k) = _
  rw [W2_arr m ρ c 4, Count0.count_final, labs_eq']

/-- The table the second region reads is the table of one-hot standard deviations. -/
theorem table_eq (c : Dev nD) (k : Fin 1024) (e : Fin 512) : V5 m ρ c main_v17 (ix2 k e) = stdK (feats m c) (labels m c) k e := by
  rw [HostGlue.V5_table]
  unfold stdK cnt HostGlue.exitCnt
  rw [exitSums_eq, exitSumsq_eq, exitCount_eq]

/-- The result array at the last boundary. -/
theorem result_apply (c : Dev nD) (n : Fin 65536) (e : Fin 512) :
    W6 m ρ c (Proc.devRef .tc main_v18) (ix2 n e) = outK (feats m c) (labels m c) n e := by
  refine (congrFun (W6_arr m ρ c 2) (ix2 n e)).trans ((Gather1.out_final (V5 m ρ) c n e).trans ?_)
  show (∑ k : Fin 1024, oh (V5 m ρ c main_v0 (ix2 n (0 : Fin 1))) k.val * V5 m ρ c main_v17 (ix2 k e) : EReal)
    = ∑ k : Fin 1024, oh (labels m c n) k.val * stdK (feats m c) (labels m c) k e
  exact Finset.sum_congr rfl fun k _ => by rw [HostGlue.V5_lab, table_eq]

end Cert.KernelIdeal.KernelValue

end
-- ==== Proof.RefValue.lean ====
/-
  The reference program's result, read at an index: sample `n`'s row is the standard deviation, by segments,
  of the class its label names.
-/
import proofs.«410598_j31885837205658_3_alg».proof.Proof.RefRead
import proofs.«410598_j31885837205658_3_alg».proof.Proof.ClassStats
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.ClassStats ValueIdx

/-- A start index read signed and clamped to the table's rows. -/
def clampRow (l : BitVec 32) : Fin 1000 := ⟨min l.toInt.toNat 999, by omega⟩

/-- The gather read at sample n, feature e: the table at the start index's row, read signed and clamped. -/
theorem gather_apply {α : Type} (y : S1000x512.Idx → α) (idx : IVec S65536x1 32) (n : Fin 65536) (e : Fin 512) :
    Host.gather gather_S1000x512_S65536x1_S65536x512_1_0_n_n_0_1_1512 y idx (ix2 n e)
      = y (ix2 (clampRow (idx (ix2 n 0))) e) := by
  unfold Host.gather
  congr 1
  funext a
  refine Fin.ext ?_
  match a with
  | ⟨0, _⟩ =>
    show GatherDims.start _ (ix2 n e) idx 0 + GatherDims.batchCoord _ (ix2 n e) 0 + GatherDims.offCoord _ (ix2 n e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x512_S65536x1_S65536x512_1_0_n_n_0_1_1512.startIndexMap from List.mem_singleton.mpr rfl)]
    have hsi : gather_S1000x512_S65536x1_S65536x512_1_0_n_n_0_1_1512.siIdx (ix2 n e) ⟨List.idxOf (0 : Fin 2) gather_S1000x512_S65536x1_S65536x512_1_0_n_n_0_1_1512.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show GatherDims.start _ (ix2 n e) idx 1 + GatherDims.batchCoord _ (ix2 n e) 1 + GatherDims.offCoord _ (ix2 n e) 1 = _
    rw [GatherDims.batchCoord_eq_zero _ _ _ List.not_mem_nil]
    unfold GatherDims.start
    rw [dif_neg (show ¬ (1 : Fin 2) ∈ gather_S1000x512_S65536x1_S65536x512_1_0_n_n_0_1_1512.startIndexMap from by decide)]
    unfold GatherDims.offCoord
    rw [dif_pos (show (1 : Fin 2) ∈ gather_S1000x512_S65536x1_S65536x512_1_0_n_n_0_1_1512.sKept from by decide)]
    rw [Nat.zero_add]
    rfl

/-- An update lands on operand index i exactly when, on every axis, its start plus window coordinate is i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hh
      have h1 := congrFun (Option.some.inj h) a
      have h2 := congrArg Fin.val h1
      simp only at h2
      have := hh a
      omega
    · exact absurd h (by simp)
  · intro h
    have hh : ∀ a, 0 ≤ d.start j idx a + d.window j a ∧ d.start j idx a + d.window j a < s.size a := by
      intro a; rw [h a]; exact ⟨by omega, by exact_mod_cast (i a).isLt⟩
    rw [dif_pos hh]
    congr 1
    funext a
    refine Fin.ext ?_
    show (d.start j idx a + d.window j a).toNat = (i a).val
    rw [h a]; simp

/-- The feature scatter: the update at (n, e') lands on (k, e) exactly when n's label, read signed, is k, and e' is e. -/
theorem scatter2_resultIdx {w : Nat} (idx : IVec S65536x1 w) (n : Fin 65536) (e' : Fin 512) (k : Fin 1000) (e : Fin 512) :
    scatter_S1000x512_S65536x1_S65536x512_1_0_0_1.resultIdx? (ix2 n e') idx = some (ix2 k e)
      ↔ ((idx (ix2 n 0)).toInt = (k.val : ℤ) ∧ e' = e) := by
  rw [resultIdx?_eq_some_iff]
  have hs0 : scatter_S1000x512_S65536x1_S65536x512_1_0_0_1.start (ix2 n e') idx 0 = (idx (ix2 n 0)).toInt := by
    unfold ScatterDims.start
    rw [dif_pos (show (0 : Fin 2) ∈ scatter_S1000x512_S65536x1_S65536x512_1_0_0_1.scatterDimsToOperandDims from List.mem_singleton.mpr rfl)]
    congr 2
    funext b; refine Fin.ext ?_
    match b with
    | ⟨0, _⟩ => rfl
    | ⟨1, _⟩ => rfl
  have hs1 : scatter_S1000x512_S65536x1_S65536x512_1_0_0_1.start (ix2 n e') idx 1 = 0 := by
    unfold ScatterDims.start
    rw [dif_neg (show ¬ (1 : Fin 2) ∈ scatter_S1000x512_S65536x1_S65536x512_1_0_0_1.scatterDimsToOperandDims from by decide)]
  have hw0 : scatter_S1000x512_S65536x1_S65536x512_1_0_0_1.window (ix2 n e') 0 = 0 := by
    unfold ScatterDims.window
    rw [dif_neg (show ¬ (0 : Fin 2) ∈ scatter_S1000x512_S65536x1_S65536x512_1_0_0_1.sKept from by decide)]
  have hw1 : scatter_S1000x512_S65536x1_S65536x512_1_0_0_1.window (ix2 n e') 1 = e'.val := by
    unfold ScatterDims.window
    rw [dif_pos (show (1 : Fin 2) ∈ scatter_S1000x512_S65536x1_S65536x512_1_0_0_1.sKept from by decide)]
    rfl
  rw [Fin.forall_fin_two, hs0, hs1, hw0, hw1]
  show ((idx (ix2 n 0)).toInt + ((0 : ℕ) : ℤ) = (k.val : ℤ) ∧ (0 : ℤ) + (e'.val : ℤ) = (e.val : ℤ)) ↔ _
  constructor
  · rintro ⟨h0, h1⟩
    exact ⟨by omega, Fin.ext (by omega)⟩
  · rintro ⟨h0, h1⟩
    subst h1
    exact ⟨by omega, by omega⟩

/-- The count scatter: the update at n lands on k exactly when n's label, read signed, is k. -/
theorem scatter1_resultIdx {w : Nat} (idx : IVec S65536x1 w) (n : Fin 65536) (k : Fin 1000) :
    scatter_S1000_S65536x1_S65536_n_0_0_1.resultIdx? (ix1 n) idx = some (ix1 k)
      ↔ (idx (ix2 n 0)).toInt = (k.val : ℤ) := by
  rw [resultIdx?_eq_some_iff]
  have hs0 : scatter_S1000_S65536x1_S65536_n_0_0_1.start (ix1 n) idx 0 = (idx (ix2 n 0)).toInt := by
    unfold ScatterDims.start
    rw [dif_pos (show (0 : Fin 1) ∈ scatter_S1000_S65536x1_S65536_n_0_0_1.scatterDimsToOperandDims from List.mem_singleton.mpr rfl)]
    congr 2
    funext b; refine Fin.ext ?_
    match b with
    | ⟨0, _⟩ => rfl
    | ⟨1, _⟩ => rfl
  have hw0 : scatter_S1000_S65536x1_S65536_n_0_0_1.window (ix1 n) 0 = 0 := by
    unfold ScatterDims.window
    rw [dif_neg (show ¬ (0 : Fin 1) ∈ scatter_S1000_S65536x1_S65536_n_0_0_1.sKept from by decide)]
  constructor
  · intro h
    have := h 0
    rw [hs0, hw0] at this
    simpa using this
  · intro h a
    obtain rfl : a = 0 := Subsingleton.elim _ _
    rw [hs0, hw0]
    simpa using h

/-- A rank-1 index set is its coordinate's range. -/
def idxEquiv1 {n0 : Nat} : (⟨1, ![n0]⟩ : Shape).Idx ≃ Fin n0 where
  toFun i := i 0
  invFun p := ix1 p
  left_inv i := (eq_ix1 i).symm
  right_inv _ := rfl
/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- The feature scatter-add at (k, e): the operand's element plus the updates of feature e over the samples whose label,
    read signed, is k. -/
theorem scatter2_apply (x : S1000x512.Idx → EReal) (idx : IVec S65536x1 32) (upd : S65536x512.Idx → EReal)
    (k : Fin 1000) (e : Fin 512) :
    Ideal.hostScatterAdd scatter_S1000x512_S65536x1_S65536x512_1_0_0_1 x idx upd (ix2 k e)
      = x (ix2 k e) + ∑ n ∈ Finset.univ.filter (fun n : Fin 65536 => (idx (ix2 n 0)).toInt = (k.val : ℤ)), upd (ix2 n e) := by
  unfold Ideal.hostScatterAdd
  refine congrArg (fun t => x (ix2 k e) + t) ?_
  rw [Finset.sum_filter, sum_idx2, Finset.sum_filter]
  refine Finset.sum_congr rfl fun n _ => ?_
  simp only [scatter2_resultIdx]
  by_cases h : (idx (ix2 n 0)).toInt = (k.val : ℤ)
  · simp only [h, true_and, if_true]
    rw [Finset.sum_ite_eq' Finset.univ e (fun b => upd (ix2 n b)), if_pos (Finset.mem_univ e)]
  · simp only [h, false_and, if_false, Finset.sum_const_zero]

/-- The count scatter-add at k: the operand's element plus the updates over the samples whose label, read signed, is k. -/
theorem scatter1_apply (x : S1000.Idx → EReal) (idx : IVec S65536x1 32) (upd : S65536.Idx → EReal) (k : Fin 1000) :
    Ideal.hostScatterAdd scatter_S1000_S65536x1_S65536_n_0_0_1 x idx upd (ix1 k)
      = x (ix1 k) + ∑ n ∈ Finset.univ.filter (fun n : Fin 65536 => (idx (ix2 n 0)).toInt = (k.val : ℤ)), upd (ix1 n) := by
  unfold Ideal.hostScatterAdd
  refine congrArg (fun t => x (ix1 k) + t) ?_
  rw [Finset.sum_filter, sum_idx1, Finset.sum_filter]
  refine Finset.sum_congr rfl fun n _ => ?_
  simp only [scatter1_resultIdx]

/-! ## The program's stages at an index -/

open Cert.ReferenceIdeal.ReadP

/-- The word 0x3F800000 encodes one. -/
theorem one_f32 : Ideal.ofBits .f32 0x3F800000#32 = 1 := by
  simp [Ideal.ofBits, Ideal.ieee, -EReal.coe_mul]; norm_num

/-- A select on "l is negative, read signed" is the if. -/
theorem select_slt_zero {α : Type} (l : BitVec 32) (a b : α) :
    Scalar.select (IntOp.cmpi .slt l 0#32) a b = if l.toInt < 0 then a else b := by
  unfold Scalar.select IntOp.cmpi
  by_cases h : l.toInt < 0
  · simp [BitVec.slt, h]
  · simp [BitVec.slt, h]

/-- A select on "c is zero" between one and c is the divisor's if. -/
theorem select_oeq_zero (c : EReal) :
    Scalar.select (FloatOps.cmpf (F := Ideal) (φ := .f32) .oeq c (FloatOps.ofBits .f32 0x00000000#32)) (FloatOps.ofBits (F := Ideal) .f32 0x3F800000#32) c
      = if c = 0 then 1 else c := by
  rw [Ideal.cmpf_def, Ideal.ofBits_def, Ideal.ofBits_def, Ideal.ofBits_zero_f32, one_f32]
  unfold Scalar.select Ideal.cmp
  by_cases h : c = 0
  · simp [h]
  · simp [h]

section Stages

variable (x0 : (⟨S65536x512, .f32⟩ : BufTy).Contents (Elt Ideal)) (x1 : (⟨S65536, .i32⟩ : BufTy).Contents (Elt Ideal))

/-- The labels as a column: row n reads label n. -/
theorem col_idx (n : Fin 65536) : idx_main_v2 (ix2 n (0 : Fin 1)) = ix1 n := by
  funext b; match b with | ⟨0, _⟩ => rfl

theorem v2_apply (n : Fin 65536) : val_main_v2 (F := Ideal) x1 (ix2 n 0) = x1 (ix1 n) := by
  rw [val_main_v2_apply]; exact congrArg x1 (col_idx n)
theorem v9_apply (n : Fin 65536) : val_main_v9 (F := Ideal) x1 (ix2 n 0) = x1 (ix1 n) := by
  rw [val_main_v9_apply]; exact congrArg x1 (col_idx n)
theorem v23_apply (n : Fin 65536) : val_main_v23 (F := Ideal) x1 (ix2 n 0) = x1 (ix1 n) := by
  rw [val_main_v23_apply]; exact congrArg x1 (col_idx n)

theorem v0_apply (n : Fin 65536) : val_main_v0 (F := Ideal) (ix1 n) = 1 := by
  rw [val_main_v0_apply, val_main_cst_apply, Ideal.ofBits_def, one_f32]
theorem v1_apply (k : Fin 1000) : val_main_v1 (F := Ideal) (ix1 k) = 0 := by
  rw [val_main_v1_apply, val_main_cst_0_apply, Ideal.ofBits_def, Ideal.ofBits_zero_f32]
theorem v8_apply (k : Fin 1000) (e : Fin 512) : val_main_v8 (F := Ideal) (ix2 k e) = 0 := by
  rw [val_main_v8_apply, val_main_cst_3_apply, Ideal.ofBits_def, Ideal.ofBits_zero_f32]
theorem v22_apply (k : Fin 1000) (e : Fin 512) : val_main_v22 (F := Ideal) (ix2 k e) = 0 := by
  rw [val_main_v22_apply, val_main_cst_5_apply, Ideal.ofBits_def, Ideal.ofBits_zero_f32]

/-- The count scatter: class k's count of members. -/
theorem v3_apply (k : Fin 1000) :
    val_main_v3 (F := Ideal) x1 (ix1 k) = rcount (fun n => x1 (ix1 n)) k := by
  show Ideal.hostScatterAdd scatter_S1000_S65536x1_S65536_n_0_0_1 (val_main_v1 (F := Ideal)) (val_main_v2 (F := Ideal) x1)
    (val_main_v0 (F := Ideal)) (ix1 k) = _
  rw [scatter1_apply, v1_apply]
  simp only [v2_apply, v0_apply]
  rfl

/-- The where-select: the divisor. -/
theorem v6_apply (k : Fin 1000) :
    val_main_v6 (F := Ideal) x1 (ix1 k) = rcnt (fun n => x1 (ix1 n)) k := by
  rw [val_main_v6_apply, val_main_v5_apply, v3_apply, val_main_v4_apply, val_main_cst_1_apply, val_main_call0_v0_apply,
    val_main_cst_2_apply, select_oeq_zero]
  rfl

theorem v11_idx (k : Fin 1000) (e : Fin 512) : idx_main_v7 (idx_main_v11 (ix2 k e)) = ix1 k := by
  funext b; match b with | ⟨0, _⟩ => rfl

theorem v11_apply (k : Fin 1000) (e : Fin 512) :
    val_main_v11 (F := Ideal) x1 (ix2 k e) = rcnt (fun n => x1 (ix1 n)) k := by
  rw [val_main_v11_apply, val_main_v7_apply, v11_idx, v6_apply]
theorem v25_apply (k : Fin 1000) (e : Fin 512) :
    val_main_v25 (F := Ideal) x1 (ix2 k e) = rcnt (fun n => x1 (ix1 n)) k := by
  rw [val_main_v25_apply, val_main_v7_apply]
  exact (congrArg (val_main_v6 (F := Ideal) x1) (v11_idx k e)).trans (v6_apply x1 k)

/-- The feature scatter: class k's sum of feature e. -/
theorem v10_apply (k : Fin 1000) (e : Fin 512) :
    val_main_v10 (F := Ideal) x0 x1 (ix2 k e) = seg (fun n => x1 (ix1 n)) (fun n => x0 (ix2 n e)) k := by
  show Ideal.hostScatterAdd scatter_S1000x512_S65536x1_S65536x512_1_0_0_1 (val_main_v8 (F := Ideal)) (val_main_v9 (F := Ideal) x1)
    x0 (ix2 k e) = _
  rw [scatter2_apply, v8_apply]
  simp only [v9_apply]
  rfl

/-- The class means. -/
theorem v12_apply (k : Fin 1000) (e : Fin 512) :
    val_main_v12 (F := Ideal) x0 x1 (ix2 k e) = rmean (fun n e => x0 (ix2 n e)) (fun n => x1 (ix1 n)) k e := by
  rw [val_main_v12_apply, v10_apply, v11_apply, Ideal.hostDivf_def]
  rfl

/-- The row index the gathers read: a negative label moved up by 1000. -/
theorem v17_apply (n : Fin 65536) :
    val_main_v17 (F := Ideal) x1 (ix1 n) = if (x1 (ix1 n)).toInt < 0 then x1 (ix1 n) + 1000#32 else x1 (ix1 n) := by
  rw [val_main_v17_apply, val_main_v14_apply, val_main_v13_apply, val_main_c_apply, val_main_v16_apply, val_main_v15_apply,
    val_main_c_4_apply, select_slt_zero]
  rfl
theorem v32_apply (n : Fin 65536) :
    val_main_v32 (F := Ideal) x1 (ix1 n) = if (x1 (ix1 n)).toInt < 0 then x1 (ix1 n) + 1000#32 else x1 (ix1 n) := by
  rw [val_main_v32_apply, val_main_v29_apply, val_main_v28_apply, val_main_c_6_apply, val_main_v31_apply, val_main_v30_apply,
    val_main_c_7_apply, select_slt_zero]
  rfl

theorem v18_apply (n : Fin 65536) : val_main_v18 (F := Ideal) x1 (ix2 n 0) = val_main_v17 (F := Ideal) x1 (ix1 n) := by
  rw [val_main_v18_apply]; exact congrArg (val_main_v17 (F := Ideal) x1) (col_idx n)
theorem v33_apply (n : Fin 65536) : val_main_v33 (F := Ideal) x1 (ix2 n 0) = val_main_v32 (F := Ideal) x1 (ix1 n) := by
  rw [val_main_v33_apply]; exact congrArg (val_main_v32 (F := Ideal) x1) (col_idx n)

/-- The first gather: sample n's class mean. -/
theorem v19_apply (n : Fin 65536) (e : Fin 512) :
    val_main_v19 (F := Ideal) x0 x1 (ix2 n e)
      = rmean (fun n e => x0 (ix2 n e)) (fun n => x1 (ix1 n)) (row (x1 (ix1 n))) e := by
  unfold val_main_v19
  rw [gather_apply, v18_apply, v17_apply]
  exact v12_apply x0 x1 (row (x1 (ix1 n))) e

/-- The squared deviation from the class mean. -/
theorem v21_apply (n : Fin 65536) (e : Fin 512) :
    val_main_v21 (F := Ideal) x0 x1 (ix2 n e)
      = (x0 (ix2 n e) - rmean (fun n e => x0 (ix2 n e)) (fun n => x1 (ix1 n)) (row (x1 (ix1 n))) e)
        * (x0 (ix2 n e) - rmean (fun n e => x0 (ix2 n e)) (fun n => x1 (ix1 n)) (row (x1 (ix1 n))) e) := by
  rw [val_main_v21_apply, val_main_v20_apply, v19_apply, Ideal.subf_def, Ideal.mulf_def]

/-- The second feature scatter: class k's sum of squared deviations. -/
theorem v24_apply (k : Fin 1000) (e : Fin 512) :
    val_main_v24 (F := Ideal) x0 x1 (ix2 k e)
      = seg (fun n => x1 (ix1 n)) (fun n => (x0 (ix2 n e) - rmean (fun n e => x0 (ix2 n e)) (fun n => x1 (ix1 n)) (row (x1 (ix1 n))) e)
        * (x0 (ix2 n e) - rmean (fun n e => x0 (ix2 n e)) (fun n => x1 (ix1 n)) (row (x1 (ix1 n))) e)) k := by
  show Ideal.hostScatterAdd scatter_S1000x512_S65536x1_S65536x512_1_0_0_1 (val_main_v22 (F := Ideal)) (val_main_v23 (F := Ideal) x1)
    (val_main_v21 (F := Ideal) x0 x1) (ix2 k e) = _
  rw [scatter2_apply, v22_apply]
  simp only [v23_apply, v21_apply]
  rfl

/-- The class standard deviations. -/
theorem v27_apply (k : Fin 1000) (e : Fin 512) :
    val_main_v27 (F := Ideal) x0 x1 (ix2 k e) = Ideal.sqrt (rvar (fun n e => x0 (ix2 n e)) (fun n => x1 (ix1 n)) k e) := by
  rw [val_main_v27_apply, val_main_v26_apply, v24_apply, v25_apply, Ideal.hostDivf_def, Ideal.hostUnary_sqrt_def]
  rfl

/-- The second gather: sample n's class standard deviation. -/
theorem v34_apply (n : Fin 65536) (e : Fin 512) :
    val_main_v34 (F := Ideal) x0 x1 (ix2 n e) = outR (fun n e => x0 (ix2 n e)) (fun n => x1 (ix1 n)) n e := by
  unfold val_main_v34
  rw [gather_apply, v33_apply, v32_apply]
  exact v27_apply x0 x1 (row (x1 (ix1 n))) e

end Stages

variable (m : (ℓ : Loc nD τ sig) → Buf (Elt Ideal) ℓ)

/-- The reference's result at sample `n`, feature `e`. -/
theorem res_apply (c : Dev nD) (n : Fin 65536) (e : Fin 512) :
    Cert.ReferenceIdeal.ValueP.res_main_v34 (F := Ideal) m c (ix2 n e)
      = outR (fun n e => m ((c.tc : Thread nD τ).loc main_arg0) (ix2 n e))
          (fun n => m ((c.tc : Thread nD τ).loc main_arg1) (ix1 n)) n e := by
  rw [val_main_v34_eq]
  exact v34_apply _ _ n e

end Cert.ReferenceIdeal.RefValue

end
-- ==== Proof.ClassStatsLaw.lean ====
/-
  The two readings of the per-class standard deviation agree for finite features and labels in [0, 1000).
-/
import proofs.«410598_j31885837205658_3_alg».proof.Proof.ClassStats

noncomputable section

namespace Cert.ClassStats

open Idealize.ShloMosaic

/-! ### Words and classes -/

/-- A word whose signed reading lies in [0, 1000) is the word of class `k` exactly when that reading is `k`. -/
theorem eq_ofNat_iff (l : BitVec 32) (h0 : 0 ≤ l.toInt) (h1 : l.toInt < 1000) (k : ℕ) (hk : k < 1024) :
    l = BitVec.ofNat 32 k ↔ l.toInt = (k : ℤ) := by
  rw [BitVec.toInt_eq_toNat_cond] at h0 h1 ⊢
  rw [← BitVec.toNat_inj, BitVec.toNat_ofNat]
  have := l.isLt
  split_ifs at h0 h1 ⊢ <;> omega

/-- A label that reads `k` reads row `k` of the table: it is not negative and below the clamp. -/
theorem row_eq (l : BitVec 32) (k : Fin 1000) (h : l.toInt = (k.val : ℤ)) : row l = k := by
  have h0 : ¬ l.toInt < 0 := by omega
  apply Fin.ext
  simp only [row, if_neg h0]
  omega

/-! ### Real arithmetic inside the extended reals -/

/-- A finite sum of reals, read in the extended reals, is the sum of the readings. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, is the real quotient. -/
theorem div_coe_coe (A K : ℝ) (hK : K ≠ 0) : Ideal.div (A : EReal) (K : EReal) = ((A / K : ℝ) : EReal) := by
  rw [Ideal.div_coe hK, ← EReal.coe_mul, mul_one_div]

/-- Over a nonempty finite family, the mean squared deviation from the mean is the mean of the squares
    minus the squared mean: expand the square and use that the family's sum is its size times its mean. -/
theorem real_var {ι : Type*} (M : Finset ι) (f : ι → ℝ) (hM : (M.card : ℝ) ≠ 0) :
    (∑ i ∈ M, (f i - (∑ j ∈ M, f j) / M.card) * (f i - (∑ j ∈ M, f j) / M.card)) / M.card
      = (∑ i ∈ M, f i * f i) / M.card - (∑ j ∈ M, f j) / M.card * ((∑ j ∈ M, f j) / M.card) := by
  generalize hμ : (∑ j ∈ M, f j) / (M.card : ℝ) = μ
  have hS : ∑ j ∈ M, f j = M.card * μ := by rw [← hμ]; field_simp
  have h2 : ∑ i ∈ M, (f i - μ) * (f i - μ)
      = ∑ i ∈ M, f i * f i - 2 * μ * ∑ i ∈ M, f i + M.card * (μ * μ) := by
    simp only [sub_mul, mul_sub, Finset.sum_sub_distrib, Finset.sum_const, nsmul_eq_mul,
      ← Finset.mul_sum, ← Finset.sum_mul]
    ring
  rw [h2, hS]
  field_simp
  ring

/-- The same law with every operation read in the extended reals: the clipped "mean of squares minus
    squared mean" and the mean squared deviation have the same root. The deviation form is a sum of
    squares over a positive size, so it is not negative and the clip at zero is idle. -/
theorem sqrt_var {ι : Type*} (M : Finset ι) (f : ι → ℝ) (hM : (M.card : ℝ) ≠ 0) :
    Ideal.sqrt (max (Ideal.div ((∑ i ∈ M, f i * f i : ℝ) : EReal) ((M.card : ℝ) : EReal)
        - Ideal.div ((∑ i ∈ M, f i : ℝ) : EReal) ((M.card : ℝ) : EReal)
          * Ideal.div ((∑ i ∈ M, f i : ℝ) : EReal) ((M.card : ℝ) : EReal)) 0)
      = Ideal.sqrt (Ideal.div
          ((∑ i ∈ M, (f i - (∑ j ∈ M, f j) / M.card) * (f i - (∑ j ∈ M, f j) / M.card) : ℝ) : EReal)
          ((M.card : ℝ) : EReal)) := by
  rw [div_coe_coe _ _ hM, div_coe_coe _ _ hM, div_coe_coe _ _ hM, ← EReal.coe_mul, ← EReal.coe_sub,
    ← real_var M f hM, max_eq_left]
  exact EReal.coe_nonneg.2
    (div_nonneg (Finset.sum_nonneg fun i _ => mul_self_nonneg _) (Nat.cast_nonneg _))

/-! ### The one-hot sums are the segment sums -/

section Law

variable (x : Fin 65536 → Fin 512 → EReal) (lab : Fin 65536 → BitVec 32)
  (r : Fin 65536 → Fin 512 → ℝ)

/-- A sum over all samples weighted by the one-hot entries at class `k` is the sum over the samples
    whose label reads `k`: the entry is one on them and zero elsewhere. -/
theorem oh_sum (hlab : ∀ n, 0 ≤ (lab n).toInt ∧ (lab n).toInt < 1000) (f : Fin 65536 → EReal)
    (k : ℕ) (hk : k < 1024) :
    ∑ n : Fin 65536, oh (lab n) k * f n
      = ∑ n ∈ Finset.univ.filter (fun n : Fin 65536 => (lab n).toInt = (k : ℤ)), f n := by
  rw [Finset.sum_filter]
  refine Finset.sum_congr rfl fun n _ => ?_
  have hiff := eq_ofNat_iff (lab n) (hlab n).1 (hlab n).2 k hk
  rw [oh]
  by_cases h : (lab n).toInt = (k : ℤ)
  · rw [if_pos h, if_pos (hiff.2 h), one_mul]
  · rw [if_neg h, if_neg (mt hiff.1 h), zero_mul]

/-- The one-hot row of a label that reads `c` picks entry `c` out of a table over the padded classes. -/
theorem oh_pick (l : BitVec 32) (h0 : 0 ≤ l.toInt) (h1 : l.toInt < 1000) (c : ℕ) (hc : c < 1024)
    (hlc : l.toInt = (c : ℤ)) (t : Fin 1024 → EReal) :
    ∑ k : Fin 1024, oh l k.val * t k = t ⟨c, hc⟩ := by
  rw [Finset.sum_eq_single (⟨c, hc⟩ : Fin 1024)]
  · rw [oh, if_pos ((eq_ofNat_iff l h0 h1 c hc).2 hlc), one_mul]
  · intro b _ hb
    have hne : ¬ l = BitVec.ofNat 32 b.val := fun h => by
      have := (eq_ofNat_iff l h0 h1 b.val b.isLt).1 h
      exact hb (Fin.ext (by simp only; omega))
    rw [oh, if_neg hne, zero_mul]
  · intro h; exact absurd (Finset.mem_univ _) h

theorem sums_eq (hx : ∀ n e, x n e = (r n e : EReal))
    (hlab : ∀ n, 0 ≤ (lab n).toInt ∧ (lab n).toInt < 1000) (c : ℕ) (hc : c < 1024) (e : Fin 512) :
    sums x lab ⟨c, hc⟩ e
      = ((∑ n ∈ Finset.univ.filter (fun n : Fin 65536 => (lab n).toInt = (c : ℤ)), r n e : ℝ) : EReal) := by
  rw [sums, oh_sum lab hlab _ c hc, ← coe_sum]
  exact Finset.sum_congr rfl fun n _ => hx n e

theorem sumsq_eq (hx : ∀ n e, x n e = (r n e : EReal))
    (hlab : ∀ n, 0 ≤ (lab n).toInt ∧ (lab n).toInt < 1000) (c : ℕ) (hc : c < 1024) (e : Fin 512) :
    sumsq x lab ⟨c, hc⟩ e
      = ((∑ n ∈ Finset.univ.filter (fun n : Fin 65536 => (lab n).toInt = (c : ℤ)), r n e * r n e : ℝ) : EReal) := by
  rw [sumsq, oh_sum lab hlab _ c hc, ← coe_sum]
  exact Finset.sum_congr rfl fun n _ => by rw [hx n e, EReal.coe_mul]

theorem count_eq (hlab : ∀ n, 0 ≤ (lab n).toInt ∧ (lab n).toInt < 1000) (c : ℕ) (hc : c < 1024) :
    count lab ⟨c, hc⟩
      = (((Finset.univ.filter (fun n : Fin 65536 => (lab n).toInt = (c : ℤ))).card : ℝ) : EReal) := by
  have h : count lab ⟨c, hc⟩ = ∑ n : Fin 65536, oh (lab n) c * ((1 : ℝ) : EReal) := by
    rw [count]; exact Finset.sum_congr rfl fun n _ => by rw [EReal.coe_one, mul_one]
  rw [h, oh_sum lab hlab _ c hc, coe_sum, Finset.sum_const, nsmul_eq_mul, mul_one]

/-- A segment sum of real summands is the real sum over the class's members. -/
theorem seg_eq (f : Fin 65536 → EReal) (g : Fin 65536 → ℝ) (c : ℕ) (hc : c < 1000)
    (hfg : ∀ n, (lab n).toInt = (c : ℤ) → f n = (g n : EReal)) :
    seg lab f ⟨c, hc⟩
      = ((∑ n ∈ Finset.univ.filter (fun n : Fin 65536 => (lab n).toInt = (c : ℤ)), g n : ℝ) : EReal) := by
  rw [seg, zero_add, ← coe_sum]
  exact Finset.sum_congr rfl fun n hn => hfg n (Finset.mem_filter.1 hn).2

theorem rcount_eq (c : ℕ) (hc : c < 1000) :
    rcount lab ⟨c, hc⟩
      = (((Finset.univ.filter (fun n : Fin 65536 => (lab n).toInt = (c : ℤ))).card : ℝ) : EReal) := by
  rw [rcount, seg_eq lab (fun _ => 1) (fun _ => 1) c hc (fun _ _ => EReal.coe_one.symm),
    Finset.sum_const, nsmul_eq_mul, mul_one]

/-- The divisor of a class that has a member is its size, on both sides. -/
theorem cnt_eq (hlab : ∀ n, 0 ≤ (lab n).toInt ∧ (lab n).toInt < 1000) (c : ℕ) (hc : c < 1024)
    (hK : ((Finset.univ.filter (fun n : Fin 65536 => (lab n).toInt = (c : ℤ))).card : ℝ) ≠ 0) :
    cnt lab ⟨c, hc⟩
      = (((Finset.univ.filter (fun n : Fin 65536 => (lab n).toInt = (c : ℤ))).card : ℝ) : EReal) := by
  rw [cnt, count_eq lab hlab c hc, if_neg (EReal.coe_ne_zero.2 hK)]

theorem rcnt_eq (c : ℕ) (hc : c < 1000)
    (hK : ((Finset.univ.filter (fun n : Fin 65536 => (lab n).toInt = (c : ℤ))).card : ℝ) ≠ 0) :
    rcnt lab ⟨c, hc⟩
      = (((Finset.univ.filter (fun n : Fin 65536 => (lab n).toInt = (c : ℤ))).card : ℝ) : EReal) := by
  rw [rcnt, rcount_eq lab c hc, if_neg (EReal.coe_ne_zero.2 hK)]

/-- The mean of a class that has a member is the real mean of its members. -/
theorem rmean_eq (hx : ∀ n e, x n e = (r n e : EReal)) (c : ℕ) (hc : c < 1000) (e : Fin 512)
    (hK : ((Finset.univ.filter (fun n : Fin 65536 => (lab n).toInt = (c : ℤ))).card : ℝ) ≠ 0) :
    rmean x lab ⟨c, hc⟩ e
      = (((∑ n ∈ Finset.univ.filter (fun n : Fin 65536 => (lab n).toInt = (c : ℤ)), r n e)
          / ((Finset.univ.filter (fun n : Fin 65536 => (lab n).toInt = (c : ℤ))).card : ℝ) : ℝ) : EReal) := by
  rw [rmean, rcnt_eq lab c hc hK, seg_eq lab _ (fun n => r n e) c hc (fun n _ => hx n e),
    div_coe_coe _ _ hK]

/-- The variance of a class whose mean is the real `μ`: each member's own row is this class's row, so
    every deviation is taken from `μ`. -/
theorem rvar_eq (hx : ∀ n e, x n e = (r n e : EReal)) (c : ℕ) (hc : c < 1000) (e : Fin 512) (μ : ℝ)
    (hμ : rmean x lab ⟨c, hc⟩ e = (μ : EReal)) :
    rvar x lab ⟨c, hc⟩ e
      = Ideal.div
          ((∑ n ∈ Finset.univ.filter (fun n : Fin 65536 => (lab n).toInt = (c : ℤ)),
            (r n e - μ) * (r n e - μ) : ℝ) : EReal)
          (rcnt lab ⟨c, hc⟩) := by
  have hseg := seg_eq lab
    (fun n => (x n e - rmean x lab (row (lab n)) e) * (x n e - rmean x lab (row (lab n)) e))
    (fun n => (r n e - μ) * (r n e - μ)) c hc (fun n hn => by
      rw [row_eq (lab n) ⟨c, hc⟩ hn, hμ, hx n e, ← EReal.coe_sub, ← EReal.coe_mul])
  rw [rvar, hseg]

theorem stdK_eq (hx : ∀ n e, x n e = (r n e : EReal))
    (hlab : ∀ n, 0 ≤ (lab n).toInt ∧ (lab n).toInt < 1000) (c : ℕ) (hc : c < 1024) (e : Fin 512)
    (hK : ((Finset.univ.filter (fun n : Fin 65536 => (lab n).toInt = (c : ℤ))).card : ℝ) ≠ 0) :
    stdK x lab ⟨c, hc⟩ e
      = Ideal.sqrt (max (Ideal.div
            ((∑ n ∈ Finset.univ.filter (fun n : Fin 65536 => (lab n).toInt = (c : ℤ)), r n e * r n e : ℝ) : EReal)
            (((Finset.univ.filter (fun n : Fin 65536 => (lab n).toInt = (c : ℤ))).card : ℝ) : EReal)
          - Ideal.div
            ((∑ n ∈ Finset.univ.filter (fun n : Fin 65536 => (lab n).toInt = (c : ℤ)), r n e : ℝ) : EReal)
            (((Finset.univ.filter (fun n : Fin 65536 => (lab n).toInt = (c : ℤ))).card : ℝ) : EReal)
          * Ideal.div
            ((∑ n ∈ Finset.univ.filter (fun n : Fin 65536 => (lab n).toInt = (c : ℤ)), r n e : ℝ) : EReal)
            (((Finset.univ.filter (fun n : Fin 65536 => (lab n).toInt = (c : ℤ))).card : ℝ) : EReal)) 0) := by
  rw [stdK, sums_eq x lab r hx hlab c hc e, sumsq_eq x lab r hx hlab c hc e, cnt_eq lab hlab c hc hK]

end Law

/-- For finite features and every label in [0, 1000): a sample's one-hot row picks exactly its class, the
    class's one-hot weighted sums are its segment sums, and mean of squares minus squared mean is the mean
    squared deviation (a nonnegative real, so the clip at zero is idle). -/
theorem outK_eq_outR (x : Fin 65536 → Fin 512 → EReal) (lab : Fin 65536 → BitVec 32)
    (hfin : ∀ n e, ∃ r : ℝ, x n e = (r : EReal))
    (hlab : ∀ n, 0 ≤ (lab n).toInt ∧ (lab n).toInt < 1000)
    (n : Fin 65536) (e : Fin 512) : outK x lab n e = outR x lab n e := by
  choose r hx using hfin
  obtain ⟨h0, h1⟩ := hlab n
  -- the sample's class `c`, below 1000, and the class has the sample itself as a member
  obtain ⟨c, hcz⟩ : ∃ c : ℕ, (lab n).toInt = (c : ℤ) := ⟨(lab n).toInt.toNat, (Int.toNat_of_nonneg h0).symm⟩
  have hc : c < 1000 := by omega
  have hc' : c < 1024 := by omega
  have hmem : n ∈ Finset.univ.filter (fun n : Fin 65536 => (lab n).toInt = (c : ℤ)) :=
    Finset.mem_filter.2 ⟨Finset.mem_univ n, hcz⟩
  have hK : ((Finset.univ.filter (fun n : Fin 65536 => (lab n).toInt = (c : ℤ))).card : ℝ) ≠ 0 :=
    Nat.cast_ne_zero.2 (Finset.card_ne_zero.2 ⟨n, hmem⟩)
  rw [outK, oh_pick (lab n) h0 h1 c hc' hcz (fun k => stdK x lab k e), outR,
    row_eq (lab n) ⟨c, hc⟩ hcz, stdK_eq x lab r hx hlab c hc' e hK,
    rvar_eq x lab r hx c hc e _ (rmean_eq x lab r hx c hc e hK), rcnt_eq lab c hc hK]
  exact sqrt_var _ (fun n => r n e) hK

end Cert.ClassStats

end
-- ==== Proof.PreRead.lean ====
/-
  What the precondition says of the inputs: every feature is a real number, and every label, read signed,
  lies in [0, 1000).
-/
import proofs.«410598_j31885837205658_3_alg».proof.Pre_finite_inputs
import Idealize.ShloMosaic.Lib.ReduceAll
import Idealize.ShloMosaic.Lib.ValueIdx
import Idealize.ShloMosaic.Lib.StableHlo.Predicate
import Idealize.ShloMosaic.PureOps.Ideal
import Idealize.ShloMosaic.PureOps.Ideal.Laws

noncomputable section

namespace Cert.PreRead

open Idealize.ShloMosaic Cert.Pre_finite_inputs

variable [Cert.Pre_finite_inputs.Facts]
open Cert.Pre_finite_inputs.Facts

instance : Subsingleton S_.Idx := ⟨fun a b => funext fun d => d.elim0⟩

theorem of_pre (x : FVec Ideal S65536x512 .f32) (l : IVec S65536 32)
    (h : fn (F := Ideal) x l = fun _ => 1#1) :
    (∀ i, ∃ r : ℝ, x i = (r : EReal)) ∧ ∀ i, 0 ≤ (l i).toInt ∧ (l i).toInt < 1000 := by
  have h0 := congrFun h ValueIdx.ix0
  dsimp only [fn] at h0
  obtain ⟨hA, hB⟩ := IntOp.andi_eq_one.1 h0
  constructor
  · -- |x i| < +∞ says x i is neither infinity
    intro i
    have hi := Host.reduce_andi_all _ _ _ _ _ hA i
    have htop : (broadcastInDim S65536x512 ![] bcast_S_S65536x512 (constant (F := Ideal) S_ .f32 0x7F800000#32)) i = (⊤ : EReal) := by
      rw [StableHlo.Predicate.bcast_scalar bcast_S_S65536x512 h_S_]
      show Ideal.ofBits .f32 0x7F800000#32 = ⊤
      simp [Ideal.ofBits, Ideal.ieee]
    have hlt : max (x i) (-(x i)) < (⊤ : EReal) := by
      have : Ideal.cmp .olt (max (x i) (-(x i))) ((broadcastInDim S65536x512 ![] bcast_S_S65536x512 (constant (F := Ideal) S_ .f32 0x7F800000#32)) i) = 1#1 := hi
      rw [htop] at this
      simpa [Ideal.cmp, StableHlo.Predicate.ofBool_eq_one_iff] using this
    induction hx : x i using EReal.rec with
    | bot => rw [hx] at hlt; simp at hlt
    | coe r => exact ⟨r, rfl⟩
    | top => rw [hx] at hlt; simp at hlt
  · -- 0 ≤ label < 1000, both compares signed
    intro i
    have hi := Host.reduce_andi_all _ _ _ _ _ hB i
    obtain ⟨h1, h2⟩ := IntOp.andi_eq_one.1 hi
    have h1' := IntOp.cmpi_sge.1 h1
    have h2' := IntOp.cmpi_slt.1 h2
    rw [StableHlo.Predicate.bcast_scalar bcast_S_S65536 h_S_] at h1' h2'
    exact ⟨h1', h2'⟩

end Cert.PreRead

end
-- ==== Proof.lean ====
/-
  The certificate of the per-class standard-deviation kernel against its reference.

  Both programs return, for every sample, the population standard deviation of each feature within the
  sample's class. The kernel computes it through one-hot rows over 1024 padded classes: one pass accumulates
  the class sums, the class sums of squares and the class counts as one-hot weighted sums over all samples, the
  host forms sqrt(max(E[x²] − E[x]², 0)) per class, and a second pass picks each sample's row by a one-hot
  weighted sum. The reference computes it through segments over 1000 classes: segment sums give the counts and
  the means, a second segment sum the mean squared deviation, and each sample's row is gathered at its label.

  The precondition says that every feature is finite and every label lies in [0, 1000) — the range in which the
  reference's segment ids and row indices are in range. Under it a sample's one-hot row picks exactly its own
  class, a one-hot weighted sum over all samples is the segment sum of the class, and over the reals the mean
  of squares minus the squared mean IS the mean squared deviation (so the clip at zero is idle): the two results
  agree entry by entry (Proof/ClassStatsLaw.lean over Proof/ClassStats.lean). What each program's result array
  holds is read off its run: the kernel's in Proof/KernelValue.lean (over the two regions' values and the host
  operations between them), the reference's in Proof/RefValue.lean.

  The one rewrite of the idealization (a one-hot tile narrowed to bf16 and widened back, the identity over the
  extended reals) is the `preserves` conjunct.
-/
import proofs.«410598_j31885837205658_3_alg».proof.Defs
import proofs.«410598_j31885837205658_3_alg».proof.Proof.Gen.Kernel
import proofs.«410598_j31885837205658_3_alg».proof.Proof.Gen.Kernel.Frame
import proofs.«410598_j31885837205658_3_alg».proof.Proof.Gen.KernelIdeal
import proofs.«410598_j31885837205658_3_alg».proof.Proof.Gen.KernelIdeal.Frame
import proofs.«410598_j31885837205658_3_alg».proof.Proof.Gen.ReferenceIdeal
import proofs.«410598_j31885837205658_3_alg».proof.Proof.Gen.Pre_finite_inputs
import proofs.«410598_j31885837205658_3_alg».proof.Proof.KernelRun
import proofs.«410598_j31885837205658_3_alg».proof.Proof.KernelValue
import proofs.«410598_j31885837205658_3_alg».proof.Proof.RefRun
import proofs.«410598_j31885837205658_3_alg».proof.Proof.RefValue
import proofs.«410598_j31885837205658_3_alg».proof.Proof.ClassStatsLaw
import proofs.«410598_j31885837205658_3_alg».proof.Proof.PreRead
import Idealize.ShloMosaic.Adequacy
import Idealize.ShloMosaic.Init

noncomputable section

namespace Cert.Proof

open Idealize.ShloMosaic Idealize.ShloMosaic.TcCoe Idealize.SL.Sem

/-- The word-level kernel terminates, nothing faulting, its arguments unchanged. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- The one rewrite of the idealization: narrowing to bf16 and widening back is the identity over the extended reals. -/
theorem preserves : Cert.preserves_Kernel_KernelIdeal :=
  IdealRules.truncf_extf.statement Cert.KernelIdeal.S2048x1024 .f32 .bf16

/-- Both programs end with each sample's row at the standard deviation of its class: the kernel's one-hot reading
    and the reference's segment reading of the same launched arrays, which agree under the precondition. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W6 m ρ c (Proc.devRef .tc Cert.KernelIdeal.main_v18),
    Cert.KernelIdeal.GenP.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, hlab⟩ := Cert.PreRead.of_pre _ _ (hpre c)
  funext j
  obtain ⟨n, e, rfl⟩ : ∃ (n : Fin 65536) (e : Fin 512), j = ValueIdx.ix2 n e := ⟨j 0, j 1, ValueIdx.eq_ix2 j⟩
  rw [Cert.ReferenceIdeal.RefValue.res_apply, (hagree c).1, (hagree c).2]
  refine Eq.trans ?_ (Cert.KernelIdeal.KernelValue.result_apply m ρ c n e).symm
  exact (Cert.ClassStats.outK_eq_outR _ _ (fun n e => hfin (ValueIdx.ix2 n e)) (fun n => hlab (ValueIdx.ix1 n)) n e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
